-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x32 : Shape := ⟨3, ![8, 4096, 32]⟩
abbrev S1x3x4096 : Shape := ⟨3, ![1, 3, 4096]⟩
abbrev S1x128x3 : Shape := ⟨3, ![1, 128, 3]⟩
abbrev S1x128x32 : Shape := ⟨3, ![1, 128, 32]⟩
abbrev S3x4096 : Shape := ⟨2, ![3, 4096]⟩
abbrev S128x3 : Shape := ⟨2, ![128, 3]⟩
abbrev S128x1 : Shape := ⟨2, ![128, 1]⟩
abbrev S256x256 : Shape := ⟨2, ![256, 256]⟩
abbrev S1x1x32 : Shape := ⟨3, ![1, 1, 32]⟩
abbrev S128x32 : Shape := ⟨2, ![128, 32]⟩
abbrev S1x256 : Shape := ⟨2, ![1, 256]⟩
abbrev S128x256 : Shape := ⟨2, ![128, 256]⟩
abbrev S128x256x1 : Shape := ⟨3, ![128, 256, 1]⟩
abbrev S128x256x32 : Shape := ⟨3, ![128, 256, 32]⟩

abbrev nBuf : Space → Nat
  | .hbm => 4
  | .vmem => 6
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x32, .i32⟩
  | .local _ .vmem, ⟨0, _⟩ => ⟨S1x3x4096, .f32⟩
  | .local _ .vmem, ⟨1, _⟩ => ⟨S1x3x4096, .f32⟩
  | .local _ .vmem, ⟨2, _⟩ => ⟨S1x128x3, .f32⟩
  | .local _ .vmem, ⟨3, _⟩ => ⟨S1x128x3, .f32⟩
  | .local _ .vmem, ⟨4, _⟩ => ⟨S1x128x32, .i32⟩
  | .local _ .vmem, ⟨5, _⟩ => ⟨S1x128x32, .i32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8x4096x3_S8x3x4096_0_2_1 : S8x4096x3.Transposes [0, 2, 1] S8x3x4096
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  slices_S128x3_o0_0_S128x1 : S128x3.Slices ![0, 0] S128x1
  slices_S128x3_o0_1_S128x1 : S128x3.Slices ![0, 1] S128x1
  slices_S128x3_o0_2_S128x1 : S128x3.Slices ![0, 2] S128x1
  iota_S256x256_d0_w32 : S256x256.Iotas .tc 32 [0]
  iota_S256x256_d1_w32 : S256x256.Iotas .tc 32 [1]
  natLt_1_32 : 1 < 32
  bitsLt_bf16_f32 : FTy.bits .bf16 < FTy.bits .f32
  iota_S1x1x32_d2_w32 : S1x1x32.Iotas .tc 32 [2]
  slices_S3x4096_o0_0_S1x256 : S3x4096.Slices ![0, 0] S1x256
  slices_S3x4096_o1_0_S1x256 : S3x4096.Slices ![1, 0] S1x256
  slices_S3x4096_o2_0_S1x256 : S3x4096.Slices ![2, 0] S1x256
  broadcasts_S128x1_S128x256 : S128x1.Broadcasts S128x256
  broadcasts_S1x256_S128x256 : S1x256.Broadcasts S128x256
  slices_S128x256_o0_255_S128x1 : S128x256.Slices ![0, 255] S128x1
  shapeCasts_S128x256_S128x256x1 : S128x256.ShapeCasts S128x256x1
  broadcasts_S128x256x1_S128x256x32 : S128x256x1.Broadcasts S128x256x32
  broadcasts_S1x1x32_S128x256x32 : S1x1x32.Broadcasts S128x256x32
  reduces_S128x256x32_S128x32 : S128x256x32.Reduces [1] S128x32
  slices_S3x4096_o0_256_S1x256 : S3x4096.Slices ![0, 256] S1x256
  slices_S3x4096_o1_256_S1x256 : S3x4096.Slices ![1, 256] S1x256
  slices_S3x4096_o2_256_S1x256 : S3x4096.Slices ![2, 256] S1x256
  slices_S3x4096_o0_512_S1x256 : S3x4096.Slices ![0, 512] S1x256
  slices_S3x4096_o1_512_S1x256 : S3x4096.Slices ![1, 512] S1x256
  slices_S3x4096_o2_512_S1x256 : S3x4096.Slices ![2, 512] S1x256
  slices_S3x4096_o0_768_S1x256 : S3x4096.Slices ![0, 768] S1x256
  slices_S3x4096_o1_768_S1x256 : S3x4096.Slices ![1, 768] S1x256
  slices_S3x4096_o2_768_S1x256 : S3x4096.Slices ![2, 768] S1x256
  slices_S3x4096_o0_1024_S1x256 : S3x4096.Slices ![0, 1024] S1x256
  slices_S3x4096_o1_1024_S1x256 : S3x4096.Slices ![1, 1024] S1x256
  slices_S3x4096_o2_1024_S1x256 : S3x4096.Slices ![2, 1024] S1x256
  slices_S3x4096_o0_1280_S1x256 : S3x4096.Slices ![0, 1280] S1x256
  slices_S3x4096_o1_1280_S1x256 : S3x4096.Slices ![1, 1280] S1x256
  slices_S3x4096_o2_1280_S1x256 : S3x4096.Slices ![2, 1280] S1x256
  slices_S3x4096_o0_1536_S1x256 : S3x4096.Slices ![0, 1536] S1x256
  slices_S3x4096_o1_1536_S1x256 : S3x4096.Slices ![1, 1536] S1x256
  slices_S3x4096_o2_1536_S1x256 : S3x4096.Slices ![2, 1536] S1x256
  slices_S3x4096_o0_1792_S1x256 : S3x4096.Slices ![0, 1792] S1x256
  slices_S3x4096_o1_1792_S1x256 : S3x4096.Slices ![1, 1792] S1x256
  slices_S3x4096_o2_1792_S1x256 : S3x4096.Slices ![2, 1792] S1x256
  slices_S3x4096_o0_2048_S1x256 : S3x4096.Slices ![0, 2048] S1x256
  slices_S3x4096_o1_2048_S1x256 : S3x4096.Slices ![1, 2048] S1x256
  slices_S3x4096_o2_2048_S1x256 : S3x4096.Slices ![2, 2048] S1x256
  slices_S3x4096_o0_2304_S1x256 : S3x4096.Slices ![0, 2304] S1x256
  slices_S3x4096_o1_2304_S1x256 : S3x4096.Slices ![1, 2304] S1x256
  slices_S3x4096_o2_2304_S1x256 : S3x4096.Slices ![2, 2304] S1x256
  slices_S3x4096_o0_2560_S1x256 : S3x4096.Slices ![0, 2560] S1x256
  slices_S3x4096_o1_2560_S1x256 : S3x4096.Slices ![1, 2560] S1x256
  slices_S3x4096_o2_2560_S1x256 : S3x4096.Slices ![2, 2560] S1x256
  slices_S3x4096_o0_2816_S1x256 : S3x4096.Slices ![0, 2816] S1x256
  slices_S3x4096_o1_2816_S1x256 : S3x4096.Slices ![1, 2816] S1x256
  slices_S3x4096_o2_2816_S1x256 : S3x4096.Slices ![2, 2816] S1x256
  slices_S3x4096_o0_3072_S1x256 : S3x4096.Slices ![0, 3072] S1x256
  slices_S3x4096_o1_3072_S1x256 : S3x4096.Slices ![1, 3072] S1x256
  slices_S3x4096_o2_3072_S1x256 : S3x4096.Slices ![2, 3072] S1x256
  slices_S3x4096_o0_3328_S1x256 : S3x4096.Slices ![0, 3328] S1x256
  slices_S3x4096_o1_3328_S1x256 : S3x4096.Slices ![1, 3328] S1x256
  slices_S3x4096_o2_3328_S1x256 : S3x4096.Slices ![2, 3328] S1x256
  slices_S3x4096_o0_3584_S1x256 : S3x4096.Slices ![0, 3584] S1x256
  slices_S3x4096_o1_3584_S1x256 : S3x4096.Slices ![1, 3584] S1x256
  slices_S3x4096_o2_3584_S1x256 : S3x4096.Slices ![2, 3584] S1x256
  slices_S3x4096_o0_3840_S1x256 : S3x4096.Slices ![0, 3840] S1x256
  slices_S3x4096_o1_3840_S1x256 : S3x4096.Slices ![1, 3840] S1x256
  slices_S3x4096_o2_3840_S1x256 : S3x4096.Slices ![2, 3840] S1x256
  slices_S128x32_o0_0_S128x1 : S128x32.Slices ![0, 0] S128x1
  shapeCasts_S128x1_S128x1 : S128x1.ShapeCasts S128x1
  broadcasts_S128x1_S128x32 : S128x1.Broadcasts S128x32
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  shapeCasts_S128x32_S1x128x32 : S128x32.ShapeCasts S1x128x32
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x4096.size a ≤ S8x3x4096.size a
  hwx0_0 : ∀ i : grid0.Coords, EltTy.bits .f32 = 32 ∨ (Rect.block (s := S8x3x4096) S1x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3.size a ≤ S8x4096x3.size a
  hwx0_1 : ∀ i : grid0.Coords, EltTy.bits .f32 = 32 ∨ (Rect.block (s := S8x4096x3) S1x128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x32.size a ≤ S8x4096x32.size a
  hwx0_2 : ∀ i : grid0.Coords, EltTy.bits .i32 = 32 ∨ (Rect.block (s := S8x4096x32) S1x128x32.size (cc0_transform_2 i) (hinb0_2 i)).WholeWords (EltTy.packing .i32)

variable [Facts₀]

def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_v0) S1x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S4096 : Shape := ⟨1, ![4096]⟩
abbrev S1x1x4096 : Shape := ⟨3, ![1, 1, 4096]⟩
abbrev S8x4096x32 : Shape := ⟨3, ![8, 4096, 32]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S8x1x4096, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .i1⟩
  | .hbm, ⟨21, _⟩ => ⟨S4096, .i32⟩
  | .hbm, ⟨22, _⟩ => ⟨S1x1x4096, .i32⟩
  | .hbm, ⟨23, _⟩ => ⟨S_, .i32⟩
  | .hbm, ⟨24, _⟩ => ⟨S8x4096x4096, .i32⟩
  | .hbm, ⟨25, _⟩ => ⟨S8x4096x4096, .i32⟩
  | .hbm, ⟨26, _⟩ => ⟨S8x4096x4096, .i32⟩
  | .hbm, ⟨27, _⟩ => ⟨S8x4096x4096, .i32⟩
  | .hbm, ⟨28, _⟩ => ⟨S8x4096x32, .i32⟩
  | .hbm, ⟨29, _⟩ => ⟨S8x4096x1, .i32⟩
  | .hbm, ⟨30, _⟩ => ⟨S_, .i32⟩
  | .hbm, ⟨31, _⟩ => ⟨S8x4096x32, .i32⟩
  | .hbm, ⟨32, _⟩ => ⟨S8x4096x32, .i1⟩
  | .hbm, ⟨33, _⟩ => ⟨S8x4096x32, .i32⟩
  | .hbm, ⟨34, _⟩ => ⟨S8x4096x32, .i32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_call2_v0 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)
  slices_S8x4096x4096_S8x4096x32_0_0_0 : S8x4096x4096.Slices ![0, 0, 0] S8x4096x32
  slices_S8x4096x32_S8x4096x1_0_0_0 : S8x4096x32.Slices ![0, 0, 0] S8x4096x1
  bcast_S_S8x4096x32 : S_.BroadcastsInDim S8x4096x32 (![] : Fin 0 → Fin S8x4096x32.rank)
  bcast_S8x4096x1_S8x4096x32_0_1_2 : S8x4096x1.BroadcastsInDim S8x4096x32 (![0, 1, 2] : Fin 3 → Fin S8x4096x32.rank)
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf
def comparator_i32_d2 : BitVec 32 → BitVec 32 → BitVec 1 :=
  fun l r =>
    let v1 := IntOp.cmpi .slt l r
    v1

class Facts : Prop extends Facts₀ where

variable [Facts]
-- ==== Proof.Chunks.lean ====
/-
  The kernel's body as a regular recurrence over the sixteen source chunks.

  One grid point holds a tile of 128 query points and all 4096 source points of its batch, the sources cut into
  sixteen chunks of 256.  For chunk `c` the body forms the squared distances from every query row to the chunk's
  sources, the 0/1 mask "inside the radius", and the mask's inclusive prefix sums within the chunk as a product with
  the upper-triangular 0/1 matrix (`cumAt`).  Two values are carried from chunk to chunk: per query row the number of
  in-radius sources in the chunks before (`offNext`), and per query row and threshold `k = 1 … 32` the number of
  sources seen so far whose global inclusive rank is below `k` (`totNext`, over the ranks clamped at 33: `rcOf`).
  `stAt c` is the carried pair after `c` chunks; the stored block is the last update converted to integers with the
  slots past the count filled by slot 0.

  Everything here is stated at any float instance; the definitions use exactly the printed operations, so that the
  body's stored value is this recurrence by unfolding alone (`out_eq`).
-/
import proofs.«426870_j37014028157086_3_alg».proof.Proof.Gen.KernelIdeal.Frame

noncomputable section

namespace Cert.KernelIdeal.Chunks

open Idealize.ShloMosaic Idealize.SL.Sem Cert.KernelIdeal Cert.KernelIdeal.Gen

variable {F : FTy → Type} [FloatOps F]

/-- Row `0`, `1` or `2` (a coordinate) of the transposed sources, columns `256 c … 256 c + 255`, lies inside the
    3 × 4096 array for every `c` (the chunk number is read modulo 16, so that no bound on `c` is carried). -/
theorem sl0 (c : ℕ) : S3x4096.Slices ![0, 256 * (c % 16)] S1x256 :=
  ⟨rfl, fun d => by
    match d with
    | ⟨0, _⟩ => show 0 + 1 ≤ 3; omega
    | ⟨1, _⟩ => show 256 * (c % 16) + 256 ≤ 4096; omega⟩
theorem sl1 (c : ℕ) : S3x4096.Slices ![1, 256 * (c % 16)] S1x256 :=
  ⟨rfl, fun d => by
    match d with
    | ⟨0, _⟩ => show 1 + 1 ≤ 3; omega
    | ⟨1, _⟩ => show 256 * (c % 16) + 256 ≤ 4096; omega⟩
theorem sl2 (c : ℕ) : S3x4096.Slices ![2, 256 * (c % 16)] S1x256 :=
  ⟨rfl, fun d => by
    match d with
    | ⟨0, _⟩ => show 2 + 1 ≤ 3; omega
    | ⟨1, _⟩ => show 256 * (c % 16) + 256 ≤ 4096; omega⟩

/-- The three coordinate rows of chunk `c` of the sources. -/
def srcX (c : ℕ) (v1 : FVec F S3x4096 .f32) : FVec F S1x256 .f32 := extractStridedSlice S1x256 ![0, 256 * (c % 16)] v1 (sl0 c)
def srcY (c : ℕ) (v1 : FVec F S3x4096 .f32) : FVec F S1x256 .f32 := extractStridedSlice S1x256 ![1, 256 * (c % 16)] v1 (sl1 c)
def srcZ (c : ℕ) (v1 : FVec F S3x4096 .f32) : FVec F S1x256 .f32 := extractStridedSlice S1x256 ![2, 256 * (c % 16)] v1 (sl2 c)

/-- `|q|² + |p|²` for every query row `q` of the tile (`v11` holds `|q|²`) and every source `p` of chunk `c`. -/
def normsAt (c : ℕ) (v1 : FVec F S3x4096 .f32) (v11 : FVec F S128x1 .f32) : FVec F S128x256 .f32 :=
  addf (broadcastTo S128x256 v11 broadcasts_S128x1_S128x256)
    (broadcastTo S128x256
      (addf (addf (mulf (srcX c v1) (srcX c v1)) (mulf (srcY c v1) (srcY c v1))) (mulf (srcZ c v1) (srcZ c v1)))
      broadcasts_S1x256_S128x256)

/-- `2 ⟨q, p⟩` for the same pairs (`v4`, `v5`, `v6` hold the queries' three coordinates). -/
def twiceDotAt (c : ℕ) (v1 : FVec F S3x4096 .f32) (v4 v5 v6 : FVec F S128x1 .f32) : FVec F S128x256 .f32 :=
  mulf (broadcast S128x256 (Scalar.ofBits .f32 0x40000000#32))
    (addf
      (addf
        (mulf (broadcastTo S128x256 v4 broadcasts_S128x1_S128x256) (broadcastTo S128x256 (srcX c v1) broadcasts_S1x256_S128x256))
        (mulf (broadcastTo S128x256 v5 broadcasts_S128x1_S128x256) (broadcastTo S128x256 (srcY c v1) broadcasts_S1x256_S128x256)))
      (mulf (broadcastTo S128x256 v6 broadcasts_S128x1_S128x256) (broadcastTo S128x256 (srcZ c v1) broadcasts_S1x256_S128x256)))

/-- From `|q|² + |p|²` and `2 ⟨q, p⟩`: the 0/1 mask of the pairs closer than the radius, and its product with the
    triangular matrix `v17` — the mask's inclusive prefix sums along the chunk. -/
def cumOf (v17 : FVec F S256x256 .bf16) (norms twiceDot : FVec F S128x256 .f32) : FVec F S128x256 .f32 :=
  matmul dot_S128x256_S256x256_S128x256_1_0_0_1_n_n none
    (truncf .bf16
      (sitofp .f32
        (extui 32 (cmpf .olt (subf norms twiceDot) (broadcast S128x256 (Scalar.ofBits .f32 0x3D23D70A#32))) natLt_1_32))
      bitsLt_bf16_f32)
    v17 (constant S128x256 .f32 0x00000000#32)

/-- Chunk `c`'s within-chunk inclusive prefix counts. -/
def cumAt (c : ℕ) (v1 : FVec F S3x4096 .f32) (v4 v5 v6 v11 : FVec F S128x1 .f32) (v17 : FVec F S256x256 .bf16) :
    FVec F S128x256 .f32 :=
  cumOf v17 (normsAt c v1 v11) (twiceDotAt c v1 v4 v5 v6)

/-- The count carried to the next chunk: the chunk's last prefix count added. -/
def offNext (off : FVec F S128x1 .f32) (cm : FVec F S128x256 .f32) : FVec F S128x1 .f32 :=
  addf off (extractStridedSlice S128x1 ![0, 255] cm slices_S128x256_o0_255_S128x1)

/-- The global inclusive ranks of the chunk's sources, clamped at 33. -/
def rcOf (off : FVec F S128x1 .f32) (cm : FVec F S128x256 .f32) : FVec F S128x256 .bf16 :=
  truncf .bf16
    (minimumf (addf cm (broadcastTo S128x256 off broadcasts_S128x1_S128x256))
      (broadcast S128x256 (Scalar.ofBits .f32 0x42040000#32)))
    bitsLt_bf16_f32

/-- Per threshold `k` (`v21` holds `1 … 32`): the number of the chunk's sources whose clamped rank is below `k`. -/
def countsOf (v21 : FVec F S1x1x32 .bf16) (rc : FVec F S128x256 .bf16) : FVec F S128x32 .f32 :=
  multiReduction .add [1] S128x32
    (sitofp .f32
      (extui 32
        (cmpf .olt
          (broadcastTo S128x256x32 (shapeCast S128x256x1 rc shapeCasts_S128x256_S128x256x1) broadcasts_S128x256x1_S128x256x32)
          (broadcastTo S128x256x32 v21 broadcasts_S1x1x32_S128x256x32))
        natLt_1_32))
    0x00000000#32 reduces_S128x256x32_S128x32 (.inl rfl) rfl

/-- The running counts with one more chunk. -/
def totNext (v21 : FVec F S1x1x32 .bf16) (tot : FVec F S128x32 .f32) (rc : FVec F S128x256 .bf16) : FVec F S128x32 .f32 :=
  addf tot (countsOf v21 rc)

/-- The carried pair (count before, running threshold counts) after `c` chunks. -/
def stAt (v1 : FVec F S3x4096 .f32) (v4 v5 v6 v11 : FVec F S128x1 .f32) (v17 : FVec F S256x256 .bf16)
    (v21 : FVec F S1x1x32 .bf16) : ℕ → FVec F S128x1 .f32 × FVec F S128x32 .f32
  | 0 => (k0_pay10, k0_pay11)
  | c + 1 =>
    (offNext (stAt v1 v4 v5 v6 v11 v17 v21 c).1 (cumAt c v1 v4 v5 v6 v11 v17),
     totNext v21 (stAt v1 v4 v5 v6 v11 v17 v21 c).2 (rcOf (stAt v1 v4 v5 v6 v11 v17 v21 c).1 (cumAt c v1 v4 v5 v6 v11 v17)))

/-- What the body stores, of its two loaded blocks: fifteen chunks carried, the sixteenth folded in by the closing
    statements (which also convert to integers and fill the unused slots). -/
def stored (v0 : Vec F S1x3x4096 .f32) (v2 : Vec F S1x128x3 .f32) : IVec S1x128x32 32 :=
  k0_pay1 k0_pay9
    (stAt (k0_pay2 v0) (k0_pay4 v2) (k0_pay5 v2) (k0_pay6 v2) (k0_pay7 v2) k0_pay8 k0_pay9 15).2
    (rcOf (stAt (k0_pay2 v0) (k0_pay4 v2) (k0_pay5 v2) (k0_pay6 v2) (k0_pay7 v2) k0_pay8 k0_pay9 15).1
      (cumAt 15 (k0_pay2 v0) (k0_pay4 v2) (k0_pay5 v2) (k0_pay6 v2) (k0_pay7 v2) k0_pay8))

end Cert.KernelIdeal.Chunks

end
-- ==== Proof.StoredEq.lean ====
/-
  What the body leaves in the output block IS the chunk recurrence: the generated description of the stored value
  composes the body's statements in the order they were printed, and so does `Chunks.stored`; the two unfold to one term.
-/
import proofs.«426870_j37014028157086_3_alg».proof.Proof.Chunks

set_option maxRecDepth 16384

noncomputable section

namespace Cert.KernelIdeal.Chunks

open Idealize.ShloMosaic Idealize.SL.Sem Cert.KernelIdeal Cert.KernelIdeal.Gen

variable {F : FTy → Type} [FloatOps F]

/-- The output block after the body, from the two input blocks: one piece, the recurrence's stored value. -/
theorem out_eq (x0 : Vec F S1x3x4096 .f32) (x1 : Vec F S1x128x3 .f32) :
    out0_2 x0 x1 = View.canon [⟨r0_2, stored (View.ld x0 r0_0) (View.ld x1 r0_1)⟩] := rfl

end Cert.KernelIdeal.Chunks

end
-- ==== Proof.Count.lean ====
/-
  Counting along a line of sources `0, 1, 2, …` with a property `M` ("inside the ball").

  `count M a w` is the number of `j < w` with `M (a + j)`;  `rank M n` is the INCLUSIVE rank of position `n`: the number
  of positions `≤ n` with `M`;  `below M L k` is the number of positions `n < L` whose inclusive rank is at most `k`.
  Since the rank never decreases along the line, the positions counted by `below M L k` are an initial stretch of the
  line: `below M L k` is the position of the `(k+1)`-th source with `M`, or `L` when there are not that many.
  All three are classical counts (no decidability is asked of `M`).
-/
import Mathlib.Data.Finset.Card
import Mathlib.Data.Finset.Range
import Mathlib.Data.Finset.Filter

namespace Cert.Count

open Classical in
/-- The number of `j < w` with `M (a + j)`. -/
noncomputable def count (M : ℕ → Prop) (a w : ℕ) : ℕ := ((Finset.range w).filter fun j => M (a + j)).card

/-- The inclusive rank of position `n`: how many positions `≤ n` have `M`. -/
noncomputable def rank (M : ℕ → Prop) (n : ℕ) : ℕ := count M 0 (n + 1)

/-- How many positions `n < L` have inclusive rank at most `k`. -/
noncomputable def below (M : ℕ → Prop) (L k : ℕ) : ℕ := count (fun n => rank M n ≤ k) 0 L

/-- A count only looks at the positions `a, …, a + w - 1`. -/
theorem count_congr {M M' : ℕ → Prop} {a w : ℕ} (h : ∀ j, j < w → (M (a + j) ↔ M' (a + j))) :
    count M a w = count M' a w := by
  classical
  unfold count
  congr 1
  exact Finset.filter_congr fun j hj => h j (Finset.mem_range.mp hj)

/-- The rank of `n` only looks at the positions `≤ n`. -/
theorem rank_congr {M M' : ℕ → Prop} {n : ℕ} (h : ∀ j, j ≤ n → (M j ↔ M' j)) : rank M n = rank M' n :=
  count_congr fun j hj => by rw [Nat.zero_add]; exact h j (Nat.lt_succ_iff.mp hj)

/-- `below M L k` only looks at the positions `< L`. -/
theorem below_congr {M M' : ℕ → Prop} {L : ℕ} (k : ℕ) (h : ∀ j, j < L → (M j ↔ M' j)) : below M L k = below M' L k :=
  count_congr fun n hn => by
    rw [Nat.zero_add, rank_congr fun j hj => h j (Nat.lt_of_le_of_lt hj hn)]

end Cert.Count
-- ==== Proof.Spec.lean ====
/-
  The common value of the two programs: for every batch `b`, query point `p` and slot `k < 32`, the index of the
  `(k+1)`-th source point (in increasing index order) strictly inside the ball of squared radius `0.04` (as an f32
  literal) around `p`, where the squared distance is `(|p|² + |n|²) - 2 ⟨p, n⟩` on the extended reals; when fewer than
  `k + 1` sources are inside, the count `4096` comes out instead and the slot is filled with slot `0`'s value.
-/
import proofs.«426870_j37014028157086_3_alg».proof.Proof.Count
import Idealize.ShloMosaic.PureOps.Ideal
import Idealize.ShloMosaic.Lib.ValueIdx

noncomputable section

namespace Cert.Spec

open Idealize.ShloMosaic Idealize.ShloMosaic.ValueIdx Cert.Count

/-- The points: 8 batches of 4096 points with 3 coordinates. -/
abbrev SX : Shape := ⟨3, ![8, 4096, 3]⟩
/-- The result: 32 slots per point. -/
abbrev SO : Shape := ⟨3, ![8, 4096, 32]⟩

/-- The squared radius, the f32 nearest `0.04`. -/
def radius2 : EReal := Ideal.ofBits .f32 0x3D23D70A#32
/-- The factor `2`. -/
def two : EReal := Ideal.ofBits .f32 0x40000000#32

/-- Coordinate `a` of point `p` of batch `b`. -/
def coord (X : FVec Ideal SX .f32) (b : Fin 8) (p : Fin 4096) (a : Fin 3) : EReal := X (ix3 b p a)

/-- `|p|²`, summed in coordinate order. -/
def sqNorm (X : FVec Ideal SX .f32) (b : Fin 8) (p : Fin 4096) : EReal :=
  (coord X b p 0 * coord X b p 0 + coord X b p 1 * coord X b p 1) + coord X b p 2 * coord X b p 2

/-- `⟨p, n⟩`, summed in coordinate order. -/
def dot3 (X : FVec Ideal SX .f32) (b : Fin 8) (p n : Fin 4096) : EReal :=
  (coord X b p 0 * coord X b n 0 + coord X b p 1 * coord X b n 1) + coord X b p 2 * coord X b n 2

/-- The squared distance as both programs form it. -/
def dist2 (X : FVec Ideal SX .f32) (b : Fin 8) (p n : Fin 4096) : EReal :=
  (sqNorm X b p + sqNorm X b n) - two * dot3 X b p n

/-- Source `n` is strictly inside the ball around query `p` (and is a source at all). -/
def inBall (X : FVec Ideal SX .f32) (b : Fin 8) (p : Fin 4096) (n : ℕ) : Prop :=
  ∃ h : n < 4096, dist2 X b p ⟨n, h⟩ < radius2

/-- A slot's value from its count `c` and slot 0's count `c0`: the count where it is a source index, else slot 0's. -/
def fill (c c0 : ℕ) : BitVec 32 :=
  Scalar.select (IntOp.cmpi .slt (BitVec.ofNat 32 c) 4096#32) (BitVec.ofNat 32 c) (BitVec.ofNat 32 c0)

/-- The result at one batch, query and slot. -/
def slot (X : FVec Ideal SX .f32) (b : Fin 8) (p : Fin 4096) (k : Fin 32) : BitVec 32 :=
  fill (below (inBall X b p) 4096 k.val) (below (inBall X b p) 4096 0)

/-- The whole result array. -/
def G (X : FVec Ideal SX .f32) : IVec SO 32 := fun j => slot X (j 0) (j 1) (j 2)

end Cert.Spec

end
-- ==== Proof.TileSpec.lean ====
/-
  One tile of the kernel: the same ball, read off the values the body holds — `v1` the batch's sources transposed
  (3 × 4096), `v4`, `v5`, `v6` the tile's 128 queries' coordinates and `v11` their squared norms (columns 128 × 1).
-/
import proofs.«426870_j37014028157086_3_alg».proof.Proof.Chunks
import proofs.«426870_j37014028157086_3_alg».proof.Proof.Spec

noncomputable section

namespace Cert.KernelIdeal.Chunks

open Idealize.ShloMosaic Idealize.ShloMosaic.ValueIdx Cert.KernelIdeal Cert.Count

/-- The squared distance from the tile's query row `r` to source `n`, as the body forms it. -/
def vDist2 (v1 : FVec Ideal S3x4096 .f32) (v4 v5 v6 v11 : FVec Ideal S128x1 .f32) (r : Fin 128) (n : Fin 4096) : EReal :=
  ((v11 (ix2 r (0 : Fin 1)) : EReal)
      + (((v1 (ix2 (0 : Fin 3) n) : EReal) * v1 (ix2 (0 : Fin 3) n) + v1 (ix2 (1 : Fin 3) n) * v1 (ix2 (1 : Fin 3) n))
          + v1 (ix2 (2 : Fin 3) n) * v1 (ix2 (2 : Fin 3) n)))
    - Cert.Spec.two
      * (((v4 (ix2 r (0 : Fin 1)) : EReal) * v1 (ix2 (0 : Fin 3) n) + v5 (ix2 r (0 : Fin 1)) * v1 (ix2 (1 : Fin 3) n))
          + v6 (ix2 r (0 : Fin 1)) * v1 (ix2 (2 : Fin 3) n))

/-- Source `n` is strictly inside the ball around the tile's query row `r`. -/
def vBall (v1 : FVec Ideal S3x4096 .f32) (v4 v5 v6 v11 : FVec Ideal S128x1 .f32) (r : Fin 128) (n : ℕ) : Prop :=
  ∃ h : n < 4096, vDist2 v1 v4 v5 v6 v11 r ⟨n, h⟩ < Cert.Spec.radius2

end Cert.KernelIdeal.Chunks

end
-- ==== Proof.CumValue.lean ====
/-
  Chunk `c`'s prefix counts, read at an index: row `r`, column `i` holds the number of sources `256 c + j`, `j ≤ i`,
  inside the ball around the tile's query row `r`.
-/
import proofs.«426870_j37014028157086_3_alg».proof.Proof.TileSpec
import Idealize.ShloMosaic.Lib.Pipeline.Value
import Idealize.ShloMosaic.PureOps.Ideal.Laws

noncomputable section

namespace Cert.KernelIdeal.Chunks

open Idealize.ShloMosaic Idealize.ShloMosaic.ValueIdx Cert.KernelIdeal Cert.KernelIdeal.Gen Cert.Count

/-! ## Layout: a column and a row spread over the 128 × 256 block, and a chunk's row of sources -/

/-- A 128 × 1 column spread along the rows reads its row's entry. -/
theorem bcCol_apply (x : FVec Ideal S128x1 .f32) (r : Fin 128) (j : Fin 256) :
    broadcastTo S128x256 x broadcasts_S128x1_S128x256 (ix2 r j) = x (ix2 r (0 : Fin 1)) :=
  broadcastTo_apply x broadcasts_S128x1_S128x256 (ix2 r j) (ix2 r (0 : Fin 1)) fun a => by
    match a with
    | ⟨0, _⟩ => rfl
    | ⟨1, _⟩ => rfl

/-- A 1 × 256 row spread down the columns reads its column's entry. -/
theorem bcRow_apply (x : FVec Ideal S1x256 .f32) (r : Fin 128) (j : Fin 256) :
    broadcastTo S128x256 x broadcasts_S1x256_S128x256 (ix2 r j) = x (ix2 (0 : Fin 1) j) :=
  broadcastTo_apply x broadcasts_S1x256_S128x256 (ix2 r j) (ix2 (0 : Fin 1) j) fun a => by
    match a with
    | ⟨0, _⟩ => rfl
    | ⟨1, _⟩ => rfl

/-- Source `256 c + j` is one of the 4096. -/
theorem src_lt (c : ℕ) (hc : c < 16) (j : Fin 256) : 256 * c + j.val < 4096 := by
  have := j.isLt; omega

/-- Chunk `c`'s first coordinate row at column `j` is source `256 c + j`'s first coordinate. -/
theorem srcX_apply (c : ℕ) (hc : c < 16) (v1 : FVec Ideal S3x4096 .f32) (j : Fin 256) :
    srcX c v1 (ix2 (0 : Fin 1) j) = v1 (ix2 (0 : Fin 3) ⟨256 * c + j.val, src_lt c hc j⟩) :=
  extractStridedSlice_apply _ v1 (sl0 c) (ix2 (0 : Fin 1) j) (ix2 (0 : Fin 3) ⟨256 * c + j.val, src_lt c hc j⟩) fun a => by
    match a with
    | ⟨0, _⟩ => rfl
    | ⟨1, _⟩ => show 256 * c + j.val = 256 * (c % 16) + j.val; rw [Nat.mod_eq_of_lt hc]
theorem srcY_apply (c : ℕ) (hc : c < 16) (v1 : FVec Ideal S3x4096 .f32) (j : Fin 256) :
    srcY c v1 (ix2 (0 : Fin 1) j) = v1 (ix2 (1 : Fin 3) ⟨256 * c + j.val, src_lt c hc j⟩) :=
  extractStridedSlice_apply _ v1 (sl1 c) (ix2 (0 : Fin 1) j) (ix2 (1 : Fin 3) ⟨256 * c + j.val, src_lt c hc j⟩) fun a => by
    match a with
    | ⟨0, _⟩ => rfl
    | ⟨1, _⟩ => show 256 * c + j.val = 256 * (c % 16) + j.val; rw [Nat.mod_eq_of_lt hc]
theorem srcZ_apply (c : ℕ) (hc : c < 16) (v1 : FVec Ideal S3x4096 .f32) (j : Fin 256) :
    srcZ c v1 (ix2 (0 : Fin 1) j) = v1 (ix2 (2 : Fin 3) ⟨256 * c + j.val, src_lt c hc j⟩) :=
  extractStridedSlice_apply _ v1 (sl2 c) (ix2 (0 : Fin 1) j) (ix2 (2 : Fin 3) ⟨256 * c + j.val, src_lt c hc j⟩) fun a => by
    match a with
    | ⟨0, _⟩ => rfl
    | ⟨1, _⟩ => show 256 * c + j.val = 256 * (c % 16) + j.val; rw [Nat.mod_eq_of_lt hc]

/-! ## The squared distance at an index -/

/-- `|q|² + |p|²` at row `r`, column `j`. -/
theorem normsAt_apply (c : ℕ) (hc : c < 16) (v1 : FVec Ideal S3x4096 .f32) (v11 : FVec Ideal S128x1 .f32)
    (r : Fin 128) (j : Fin 256) :
    (normsAt c v1 v11 (ix2 r j) : EReal)
      = (v11 (ix2 r (0 : Fin 1)) : EReal)
        + (((v1 (ix2 (0 : Fin 3) ⟨256 * c + j.val, src_lt c hc j⟩) : EReal) * v1 (ix2 (0 : Fin 3) ⟨256 * c + j.val, src_lt c hc j⟩)
            + v1 (ix2 (1 : Fin 3) ⟨256 * c + j.val, src_lt c hc j⟩) * v1 (ix2 (1 : Fin 3) ⟨256 * c + j.val, src_lt c hc j⟩))
          + v1 (ix2 (2 : Fin 3) ⟨256 * c + j.val, src_lt c hc j⟩) * v1 (ix2 (2 : Fin 3) ⟨256 * c + j.val, src_lt c hc j⟩)) := by
  unfold normsAt
  rw [addf_apply, bcCol_apply, bcRow_apply, addf_apply, addf_apply, mulf_apply, mulf_apply, mulf_apply,
    srcX_apply c hc, srcY_apply c hc, srcZ_apply c hc]

/-- `2 ⟨q, p⟩` at row `r`, column `j`. -/
theorem twiceDotAt_apply (c : ℕ) (hc : c < 16) (v1 : FVec Ideal S3x4096 .f32) (v4 v5 v6 : FVec Ideal S128x1 .f32)
    (r : Fin 128) (j : Fin 256) :
    (twiceDotAt c v1 v4 v5 v6 (ix2 r j) : EReal)
      = Cert.Spec.two
        * ((((v4 (ix2 r (0 : Fin 1)) : EReal) * v1 (ix2 (0 : Fin 3) ⟨256 * c + j.val, src_lt c hc j⟩)
            + v5 (ix2 r (0 : Fin 1)) * v1 (ix2 (1 : Fin 3) ⟨256 * c + j.val, src_lt c hc j⟩))
          + v6 (ix2 r (0 : Fin 1)) * v1 (ix2 (2 : Fin 3) ⟨256 * c + j.val, src_lt c hc j⟩))) := by
  unfold twiceDotAt
  rw [mulf_apply, addf_apply, addf_apply, mulf_apply, mulf_apply, mulf_apply, bcCol_apply, bcCol_apply, bcCol_apply,
    bcRow_apply, bcRow_apply, bcRow_apply, srcX_apply c hc, srcY_apply c hc, srcZ_apply c hc]
  rfl

/-- The difference the mask compares with the radius is the tile's squared distance to source `256 c + j`. -/
theorem dist_apply (c : ℕ) (hc : c < 16) (v1 : FVec Ideal S3x4096 .f32) (v4 v5 v6 v11 : FVec Ideal S128x1 .f32)
    (r : Fin 128) (j : Fin 256) :
    (subf (normsAt c v1 v11) (twiceDotAt c v1 v4 v5 v6) (ix2 r j) : EReal)
      = vDist2 v1 v4 v5 v6 v11 r ⟨256 * c + j.val, src_lt c hc j⟩ := by
  rw [subf_apply, normsAt_apply c hc, twiceDotAt_apply c hc]
  rfl

/-! ## The 0/1 words: a comparison's bit widened and converted -/

/-- A bit widened to a word, read signed and converted: `1` for a set bit, `0` for a clear one. -/
theorem word_ofBool (b : Bool) : ((((BitVec.ofBool b).setWidth 32).toInt : ℝ) : EReal) = if b = true then 1 else 0 := by
  cases b
  · have e : ((BitVec.ofBool false).setWidth 32).toInt = 0 := by decide
    rw [e]; simp
  · have e : ((BitVec.ofBool true).setWidth 32).toInt = 1 := by decide
    rw [e]; simp

/-- A strict comparison's bit, widened to a word and converted, is `1` where it holds and `0` where it fails. -/
theorem bit_olt (x y : EReal) :
    ((((Ideal.cmp .olt x y).setWidth 32).toInt : ℝ) : EReal) = if x < y then 1 else 0 := by
  show ((((BitVec.ofBool (decide (x < y))).setWidth 32).toInt : ℝ) : EReal) = _
  rw [word_ofBool]
  by_cases h : x < y <;> simp [h]

/-- A number below 256, as a 32-bit word read signed, is itself. -/
theorem toInt_ofNat_small (j : ℕ) (hj : j < 256) : (BitVec.ofNat 32 j).toInt = (j : Int) := by
  have h : (BitVec.ofNat 32 j).toNat = j := by
    rw [BitVec.toNat_ofNat]; exact Nat.mod_eq_of_lt (by omega)
  rw [BitVec.toInt_eq_toNat_of_lt (by rw [h]; omega), h]

/-- On indices below 256 the signed word comparison is the comparison of the numbers. -/
theorem sle_ofNat (j i : ℕ) (hj : j < 256) (hi : i < 256) :
    (BitVec.ofNat 32 j).sle (BitVec.ofNat 32 i) = decide (j ≤ i) := by
  rw [BitVec.sle_eq_decide, toInt_ofNat_small j hj, toInt_ofNat_small i hi]
  simp

/-- The triangular matrix: entry (row `j`, column `i`) is `1` where `j ≤ i`, else `0`. -/
theorem tri_apply (j i : Fin 256) :
    (k0_pay8 (F := Ideal) (ix2 j i) : EReal) = if j.val ≤ i.val then 1 else 0 := by
  have e : (k0_pay8 (F := Ideal) (ix2 j i) : EReal)
      = (((BitVec.ofBool ((BitVec.ofNat 32 (0 * 256 + j.val)).sle (BitVec.ofNat 32 (0 * 256 + i.val)))).setWidth 32).toInt : ℝ) := rfl
  rw [e, Nat.zero_mul, Nat.zero_add, Nat.zero_add, sle_ofNat j.val i.val j.isLt i.isLt, word_ofBool]
  by_cases h : j.val ≤ i.val <;> simp [h]

open Classical in
/-- The mask fed to the product, at row `r`, column `j`: `1` where source `256 c + j` is inside the ball, else `0`. -/
theorem mask_apply (c : ℕ) (hc : c < 16) (v1 : FVec Ideal S3x4096 .f32) (v4 v5 v6 v11 : FVec Ideal S128x1 .f32)
    (r : Fin 128) (j : Fin 256) :
    ((truncf .bf16
        (sitofp .f32
          (extui 32 (cmpf .olt (subf (normsAt c v1 v11) (twiceDotAt c v1 v4 v5 v6))
            (broadcast S128x256 (Scalar.ofBits .f32 0x3D23D70A#32))) natLt_1_32))
        bitsLt_bf16_f32 : FVec Ideal S128x256 .bf16) (ix2 r j) : EReal)
      = if vBall v1 v4 v5 v6 v11 r (256 * c + j.val) then 1 else 0 := by
  have e : ((truncf .bf16
        (sitofp .f32
          (extui 32 (cmpf .olt (subf (normsAt c v1 v11) (twiceDotAt c v1 v4 v5 v6))
            (broadcast S128x256 (Scalar.ofBits .f32 0x3D23D70A#32))) natLt_1_32))
        bitsLt_bf16_f32 : FVec Ideal S128x256 .bf16) (ix2 r j) : EReal)
      = ((((Ideal.cmp .olt (subf (normsAt c v1 v11) (twiceDotAt c v1 v4 v5 v6) (ix2 r j)) Cert.Spec.radius2).setWidth 32).toInt : ℝ) : EReal) := rfl
  rw [e, bit_olt, dist_apply c hc]
  have hb : vBall v1 v4 v5 v6 v11 r (256 * c + j.val)
      ↔ vDist2 v1 v4 v5 v6 v11 r ⟨256 * c + j.val, src_lt c hc j⟩ < Cert.Spec.radius2 :=
    ⟨fun ⟨_, h⟩ => h, fun h => ⟨src_lt c hc j, h⟩⟩
  by_cases h : vDist2 v1 v4 v5 v6 v11 r ⟨256 * c + j.val, src_lt c hc j⟩ < Cert.Spec.radius2
  · rw [if_pos h, if_pos (hb.mpr h)]
  · rw [if_neg h, if_neg (fun h' => h (hb.mp h'))]

/-! ## Counting with 0/1 sums -/

/-- A sum of 0/1 terms on the extended reals is the number of terms that are `1`. -/
theorem sum_indicator {ι : Type} (s : Finset ι) (P : ι → Prop) [DecidablePred P] :
    ∑ j ∈ s, (if P j then (1 : EReal) else 0) = (((s.filter P).card : ℕ) : ℝ) := by
  classical
  induction s using Finset.induction_on with
  | empty => simp
  | insert a s ha ih =>
    rw [Finset.sum_insert ha, ih, Finset.filter_insert]
    by_cases h : P a
    · rw [if_pos h, if_pos h, Finset.card_insert_of_notMem (fun hm => ha (Finset.mem_of_mem_filter a hm)),
        Nat.cast_succ, EReal.coe_add, EReal.coe_one, add_comm]
    · rw [if_neg h, if_neg h, zero_add]

open Classical in
/-- The prefix sum of a 0/1 line against the triangular 0/1 column `i`: the count of the first `i + 1` positions. -/
theorem sum_tri_eq_count (M : ℕ → Prop) (a : ℕ) (i : Fin 256) :
    ∑ j : Fin 256, (if M (a + j.val) then (1 : EReal) else 0) * (if j.val ≤ i.val then 1 else 0)
      = (((count M a (i.val + 1) : ℕ) : ℝ) : EReal) := by
  have e : ∀ j : Fin 256, (if M (a + j.val) then (1 : EReal) else 0) * (if j.val ≤ i.val then 1 else 0)
      = if (M (a + j.val) ∧ j.val ≤ i.val) then 1 else 0 := fun j => by
    by_cases h1 : M (a + j.val) <;> by_cases h2 : j.val ≤ i.val <;> simp [h1, h2]
  refine (Finset.sum_congr rfl fun j _ => e j).trans ?_
  refine (sum_indicator Finset.univ fun j : Fin 256 => M (a + j.val) ∧ j.val ≤ i.val).trans ?_
  congr 2
  unfold Cert.Count.count
  refine Finset.card_bij (fun j _ => j.val) (fun j hj => ?_) (fun j _ k _ h => Fin.ext h) (fun n hn => ?_)
  · rw [Finset.mem_filter] at hj
    rw [Finset.mem_filter, Finset.mem_range]
    exact ⟨Nat.lt_succ_of_le hj.2.2, hj.2.1⟩
  · rw [Finset.mem_filter, Finset.mem_range] at hn
    have hi := i.isLt
    refine ⟨⟨n, by omega⟩, ?_, rfl⟩
    rw [Finset.mem_filter]
    exact ⟨Finset.mem_univ _, hn.2, Nat.le_of_lt_succ hn.1⟩

/-! ## The product with the triangular matrix at an index -/

theorem lhs_cum_0 (y : S128x256.Idx) (q : dot_S128x256_S256x256_S128x256_1_0_0_1_n_n.contr.Idx) :
    (dot_S128x256_S256x256_S128x256_1_0_0_1_n_n.lhsIdx y q 0).val = (y 0).val := by
  unfold DotDims.lhsIdx
  rw [dif_neg (show ¬(0 : Fin S128x256.rank) ∈ dot_S128x256_S256x256_S128x256_1_0_0_1_n_n.lhsBatch by decide),
    dif_pos (show (0 : Fin S128x256.rank) ∈ dot_S128x256_S256x256_S128x256_1_0_0_1_n_n.lhsNonContracting by decide)]
  rfl
theorem lhs_cum_1 (y : S128x256.Idx) (q : dot_S128x256_S256x256_S128x256_1_0_0_1_n_n.contr.Idx) :
    (dot_S128x256_S256x256_S128x256_1_0_0_1_n_n.lhsIdx y q 1).val = (q ⟨0, by decide⟩).val :=
  dot_S128x256_S256x256_S128x256_1_0_0_1_n_n.lhsIdx_val_of_single rfl y q
theorem rhs_cum_0 (y : S128x256.Idx) (q : dot_S128x256_S256x256_S128x256_1_0_0_1_n_n.contr.Idx) :
    (dot_S128x256_S256x256_S128x256_1_0_0_1_n_n.rhsIdx y q 0).val = (q ⟨0, by decide⟩).val :=
  dot_S128x256_S256x256_S128x256_1_0_0_1_n_n.rhsIdx_val_of_single rfl y q
theorem rhs_cum_1 (y : S128x256.Idx) (q : dot_S128x256_S256x256_S128x256_1_0_0_1_n_n.contr.Idx) :
    (dot_S128x256_S256x256_S128x256_1_0_0_1_n_n.rhsIdx y q 1).val = (y 1).val := by
  unfold DotDims.rhsIdx
  rw [dif_neg (show ¬(1 : Fin S256x256.rank) ∈ dot_S128x256_S256x256_S128x256_1_0_0_1_n_n.rhsBatch by decide),
    dif_pos (show (1 : Fin S256x256.rank) ∈ dot_S128x256_S256x256_S128x256_1_0_0_1_n_n.rhsNonContracting by decide)]
  rfl

/-- The product of a 128 × 256 block with a 256 × 256 matrix into the zero block, at row `r`, column `i`: the sum
    over `k` of the block's (r, k) entry times the matrix's (k, i) entry. -/
theorem prod_apply (lhs : FVec Ideal S128x256 .bf16) (v17 : FVec Ideal S256x256 .bf16) (r : Fin 128) (i : Fin 256) :
    (matmul dot_S128x256_S256x256_S128x256_1_0_0_1_n_n none lhs v17 (constant (F := Ideal) S128x256 .f32 0x00000000#32)
        (ix2 r i) : EReal)
      = ∑ k : Fin 256, (lhs (ix2 r k) : EReal) * v17 (ix2 k i) := by
  simp only [matmul]
  rw [Ideal.matmul_constant_zero_apply,
    ← Equiv.sum_comp (contrEquiv1 dot_S128x256_S256x256_S128x256_1_0_0_1_n_n 256 rfl rfl).symm]
  refine Finset.sum_congr rfl fun k _ => ?_
  have hk := contrEquiv1_symm_val dot_S128x256_S256x256_S128x256_1_0_0_1_n_n 256 rfl rfl k
  have el : dot_S128x256_S256x256_S128x256_1_0_0_1_n_n.lhsIdx (ix2 r i)
      ((contrEquiv1 dot_S128x256_S256x256_S128x256_1_0_0_1_n_n 256 rfl rfl).symm k) = ix2 r k :=
    funext fun a => Fin.ext (by
      match a with
      | ⟨0, _⟩ => exact lhs_cum_0 _ _
      | ⟨1, _⟩ => exact (lhs_cum_1 _ _).trans hk)
  have er : dot_S128x256_S256x256_S128x256_1_0_0_1_n_n.rhsIdx (ix2 r i)
      ((contrEquiv1 dot_S128x256_S256x256_S128x256_1_0_0_1_n_n 256 rfl rfl).symm k) = ix2 k i :=
    funext fun a => Fin.ext (by
      match a with
      | ⟨0, _⟩ => exact (rhs_cum_0 _ _).trans hk
      | ⟨1, _⟩ => exact rhs_cum_1 _ _)
  rw [el, er]

/-! ## The chunk's prefix counts -/

theorem cumAt_apply (c : ℕ) (hc : c < 16) (v1 : FVec Ideal S3x4096 .f32) (v4 v5 v6 v11 : FVec Ideal S128x1 .f32)
    (r : Fin 128) (i : Fin 256) :
    (cumAt c v1 v4 v5 v6 v11 (k0_pay8 (F := Ideal)) (ix2 r i) : EReal)
      = (((count (vBall v1 v4 v5 v6 v11 r) (256 * c) (i.val + 1) : ℕ) : ℝ) : EReal) := by
  unfold cumAt cumOf
  rw [prod_apply]
  refine (Finset.sum_congr rfl fun k _ => ?_).trans (sum_tri_eq_count (vBall v1 v4 v5 v6 v11 r) (256 * c) i)
  rw [mask_apply c hc, tri_apply]

end Cert.KernelIdeal.Chunks

end
-- ==== Proof.StepValue.lean ====
/-
  One step of the chunk recurrence, operation by operation, read at an index on the extended reals; the recurrence's
  starting values; and the closing statements (conversion to integers, filling the unused slots).
-/
import proofs.«426870_j37014028157086_3_alg».proof.Proof.TileSpec
import Idealize.ShloMosaic.Lib.Pipeline.Value
import Idealize.ShloMosaic.PureOps.Ideal.Laws

noncomputable section

namespace Cert.KernelIdeal.Chunks

open Idealize.ShloMosaic Idealize.ShloMosaic.ValueIdx Cert.KernelIdeal Cert.KernelIdeal.Gen Cert.Count

open Classical in
/-- `1` when `P` holds and `0` when not, on the extended reals: a comparison's bit widened and converted. -/
def ind (P : Prop) : EReal := if P then 1 else 0

/-- The carried count grows by the chunk's last prefix count. -/
theorem offNext_apply (off : FVec Ideal S128x1 .f32) (cm : FVec Ideal S128x256 .f32) (r : Fin 128) :
    (offNext off cm (ix2 r (0 : Fin 1)) : EReal) = off (ix2 r (0 : Fin 1)) + cm (ix2 r (255 : Fin 256)) := by
  unfold offNext
  rw [addf_apply]
  refine congrArg (fun x => off (ix2 r (0 : Fin 1)) + x) ?_
  exact extractStridedSlice_apply ![0, 255] cm slices_S128x256_o0_255_S128x1 (ix2 r (0 : Fin 1)) (ix2 r (255 : Fin 256))
    (fun a => match a with
      | ⟨0, _⟩ => by show r.val = 0 + r.val; omega
      | ⟨1, _⟩ => by show (255 : ℕ) = 255 + 0; rfl)

/-- The clamped rank: the within-chunk prefix count plus the carried count, capped at 33. -/
theorem rcOf_apply (off : FVec Ideal S128x1 .f32) (cm : FVec Ideal S128x256 .f32) (r : Fin 128) (i : Fin 256) :
    (rcOf off cm (ix2 r i) : EReal)
      = min ((cm (ix2 r i) : EReal) + off (ix2 r (0 : Fin 1))) (Ideal.ofBits .f32 0x42040000#32) := by
  unfold rcOf
  rw [truncf_apply, minimumf_apply, addf_apply, broadcast_apply]
  rw [broadcastTo_apply off broadcasts_S128x1_S128x256 (ix2 r i) (ix2 r (0 : Fin 1))
    (fun a => match a with
      | ⟨0, _⟩ => by show r.val = if (128 : ℕ) = 1 then 0 else r.val; rw [if_neg (by decide)]
      | ⟨1, _⟩ => by show (0 : ℕ) = if (1 : ℕ) = 1 then 0 else i.val; rw [if_pos rfl])]
  rfl

/-- The thresholds are `1, 2, …, 32`. -/
theorem kvec_apply (k : Fin 32) :
    (k0_pay9 (F := Ideal) (ix3 (0 : Fin 1) (0 : Fin 1) k) : EReal) = (((k.val + 1 : ℕ) : ℝ) : EReal) := by
  have hk := k.isLt
  -- the threshold's word: the coordinate plus one, as a 32-bit word
  show ((((BitVec.ofNat 32 (0 * 32 + k.val) + 1#32 : BitVec 32).toInt : ℤ) : ℝ) : EReal) = _
  have e : (BitVec.ofNat 32 (0 * 32 + k.val) + 1#32 : BitVec 32).toInt = ((k.val + 1 : ℕ) : ℤ) := by
    rw [BitVec.toInt_eq_toNat_cond]
    simp only [BitVec.toNat_add, BitVec.toNat_ofNat]
    omega
  rw [e, Int.cast_natCast]

/-- The threshold comparison's source index over the result index `(r, k)`, its source coordinate `i` inserted,
    is `(r, i, k)`. -/
private theorem lift_eq (r : Fin 128) (k : Fin 32) (i : Fin 256) :
    reduces_S128x256x32_S128x32.lift (ix2 r k) i = ix3 r i k := by
  funext c
  apply Fin.ext
  match c with
  | ⟨0, _⟩ => rfl
  | ⟨1, _⟩ => rfl
  | ⟨2, _⟩ => rfl

/-- A comparison's bit, widened to 32 bits and converted, is `1` or `0`. -/
private theorem bit_ind (P : Prop) [Decidable P] :
    ((((BitVec.ofBool (decide P)).setWidth 32).toInt : ℝ) : EReal) = ind P := by
  unfold ind
  by_cases h : P
  · rw [if_pos h, decide_eq_true h]
    have e : ((BitVec.ofBool true).setWidth 32).toInt = 1 := by decide
    rw [e]; norm_num
  · rw [if_neg h, decide_eq_false h]
    have e : ((BitVec.ofBool false).setWidth 32).toInt = 0 := by decide
    rw [e]; norm_num

/-- Slot `k` grows by the number of the chunk's sources whose clamped rank is below `k + 1`. -/
theorem totNext_apply (tot : FVec Ideal S128x32 .f32) (rc : FVec Ideal S128x256 .bf16) (r : Fin 128) (k : Fin 32) :
    (totNext (k0_pay9 (F := Ideal)) tot rc (ix2 r k) : EReal)
      = tot (ix2 r k) + ∑ i : Fin 256, ind ((rc (ix2 r i) : EReal) < (((k.val + 1 : ℕ) : ℝ) : EReal)) := by
  unfold totNext countsOf
  rw [addf_apply]
  refine congrArg (fun x => tot (ix2 r k) + x) ?_
  refine (Ideal.multiReduction_add_single _ _ reduces_S128x256x32_S128x32 (.inl rfl) rfl (ix2 r k)).trans ?_
  refine Finset.sum_congr rfl fun i _ => ?_
  rw [lift_eq r k i, sitofp_apply, extui_apply, cmpf_apply]
  -- the rank column, spread along the thresholds, read at (r, i, k)
  rw [broadcastTo_apply (shapeCast S128x256x1 rc shapeCasts_S128x256_S128x256x1) broadcasts_S128x256x1_S128x256x32
    (ix3 r i k) (ix3 r i (0 : Fin 1))
    (fun a => match a with
      | ⟨0, _⟩ => by show r.val = if (128 : ℕ) = 1 then 0 else r.val; rw [if_neg (by decide)]
      | ⟨1, _⟩ => by show i.val = if (256 : ℕ) = 1 then 0 else i.val; rw [if_neg (by decide)]
      | ⟨2, _⟩ => by show (0 : ℕ) = if (1 : ℕ) = 1 then 0 else k.val; rw [if_pos rfl])]
  rw [shapeCast_apply rc shapeCasts_S128x256_S128x256x1 (ix3 r i (0 : Fin 1)) (ix2 r i)
    (by rw [Shape.rowMajor_val_two, Shape.rowMajor_val_three]
        show r.val * 256 + i.val = (r.val * 256 + i.val) * 1 + 0
        omega)]
  -- the thresholds, spread along rows and sources, read at (r, i, k)
  rw [broadcastTo_apply (k0_pay9 (F := Ideal)) broadcasts_S1x1x32_S128x256x32
    (ix3 r i k) (ix3 (0 : Fin 1) (0 : Fin 1) k)
    (fun a => match a with
      | ⟨0, _⟩ => by show (0 : ℕ) = if (1 : ℕ) = 1 then 0 else r.val; rw [if_pos rfl]
      | ⟨1, _⟩ => by show (0 : ℕ) = if (1 : ℕ) = 1 then 0 else i.val; rw [if_pos rfl]
      | ⟨2, _⟩ => by show k.val = if (32 : ℕ) = 1 then 0 else k.val; rw [if_neg (by decide)])]
  rw [kvec_apply]
  exact bit_ind _

/-- The recurrence starts from zero counts. -/
theorem init_fst (r : Fin 128) : (k0_pay10 (F := Ideal) (ix2 r (0 : Fin 1)) : EReal) = 0 := by
  show Ideal.ofBits .f32 0x00000000#32 = 0
  exact Ideal.ofBits_zero_f32
theorem init_snd (r : Fin 128) (k : Fin 32) : (k0_pay11 (F := Ideal) (ix2 r k) : EReal) = 0 := by
  show Ideal.ofBits .f32 0x00000000#32 = 0
  exact Ideal.ofBits_zero_f32

/-- The closing statements: the last update, converted to integers; a slot whose count is not a source index takes
    slot 0's. -/
theorem final_apply (tot : FVec Ideal S128x32 .f32) (rc : FVec Ideal S128x256 .bf16) (r : Fin 128) (k : Fin 32) :
    k0_pay1 (k0_pay9 (F := Ideal)) tot rc (ix3 (0 : Fin 1) r k)
      = Scalar.select
          (IntOp.cmpi .slt (Ideal.fptosi 32 (totNext (k0_pay9 (F := Ideal)) tot rc (ix2 r k))) 4096#32)
          (Ideal.fptosi 32 (totNext (k0_pay9 (F := Ideal)) tot rc (ix2 r k)))
          (Ideal.fptosi 32 (totNext (k0_pay9 (F := Ideal)) tot rc (ix2 r (0 : Fin 32)))) := by
  -- the stored block: the last update converted, the slots at or past 4096 replaced by column 0 spread along the row
  show shapeCast S1x128x32
      (select (cmpi .slt (fptosi 32 (totNext (k0_pay9 (F := Ideal)) tot rc)) (broadcast S128x32 4096#32))
        (fptosi 32 (totNext (k0_pay9 (F := Ideal)) tot rc))
        (broadcastTo S128x32
          (shapeCast S128x1
            (extractStridedSlice S128x1 ![0, 0] (fptosi 32 (totNext (k0_pay9 (F := Ideal)) tot rc)) slices_S128x32_o0_0_S128x1)
            shapeCasts_S128x1_S128x1)
          broadcasts_S128x1_S128x32))
      shapeCasts_S128x32_S1x128x32 (ix3 (0 : Fin 1) r k) = _
  refine (shapeCast_apply _ shapeCasts_S128x32_S1x128x32 (ix3 (0 : Fin 1) r k) (ix2 r k)
    (by rw [Shape.rowMajor_val_two, Shape.rowMajor_val_three]
        show r.val * 32 + k.val = (0 * 128 + r.val) * 32 + k.val
        omega)).trans ?_
  rw [select_apply]
  -- column 0, spread along the row, read at (r, k)
  have e : broadcastTo S128x32
      (shapeCast S128x1
        (extractStridedSlice S128x1 ![0, 0] (fptosi 32 (totNext (k0_pay9 (F := Ideal)) tot rc)) slices_S128x32_o0_0_S128x1)
        shapeCasts_S128x1_S128x1)
      broadcasts_S128x1_S128x32 (ix2 r k)
      = Ideal.fptosi 32 (totNext (k0_pay9 (F := Ideal)) tot rc (ix2 r (0 : Fin 32))) := by
    refine (broadcastTo_apply _ broadcasts_S128x1_S128x32 (ix2 r k) (ix2 r (0 : Fin 1))
      (fun a => match a with
        | ⟨0, _⟩ => by show r.val = if (128 : ℕ) = 1 then 0 else r.val; rw [if_neg (by decide)]
        | ⟨1, _⟩ => by show (0 : ℕ) = if (1 : ℕ) = 1 then 0 else k.val; rw [if_pos rfl])).trans ?_
    refine (shapeCast_apply _ shapeCasts_S128x1_S128x1 (ix2 r (0 : Fin 1)) (ix2 r (0 : Fin 1)) rfl).trans ?_
    refine (extractStridedSlice_apply ![0, 0] _ slices_S128x32_o0_0_S128x1 (ix2 r (0 : Fin 1)) (ix2 r (0 : Fin 32))
      (fun a => match a with
        | ⟨0, _⟩ => by show r.val = 0 + r.val; omega
        | ⟨1, _⟩ => by show (0 : ℕ) = 0 + 0; rfl)).trans ?_
    rfl
  rw [e]
  rfl

/-- A count converts to itself. -/
theorem fptosi_nat (n : ℕ) (hn : n ≤ 4096) : Ideal.fptosi 32 (((n : ℝ)) : EReal) = BitVec.ofNat 32 n := by
  unfold Ideal.fptosi
  have h0 : (0 : ℝ) ≤ (n : ℝ) := Nat.cast_nonneg n
  show BitVec.ofInt 32 (max (-(2 ^ (32 - 1) : ℕ) : ℤ) (min (((2 ^ (32 - 1) : ℕ) : ℤ) - 1) (if (0 : ℝ) ≤ (n : ℝ) then ⌊(n : ℝ)⌋ else ⌈(n : ℝ)⌉))) = _
  rw [if_pos h0, Int.floor_natCast]
  have e : max (-(2 ^ (32 - 1) : ℕ) : ℤ) (min (((2 ^ (32 - 1) : ℕ) : ℤ) - 1) (n : ℤ)) = (n : ℤ) := by
    norm_num
    omega
  rw [e]
  exact BitVec.ofInt_natCast 32 n

end Cert.KernelIdeal.Chunks

end
-- ==== Proof.FoldCount.lean ====
/-
  Counting chunk by chunk: a count over `L + w` positions splits at `L`; the rank of a position in the next chunk is
  the count before the chunk plus the count within it; `below` over `L + w` positions is `below` over `L` plus the
  chunk's positions of small rank.  And the f32 literal the ranks are clamped at is `33`.
-/
import proofs.«426870_j37014028157086_3_alg».proof.Proof.Count
import Idealize.ShloMosaic.PureOps.Ideal.Laws

namespace Cert.Count

/-- Nothing is counted over an empty stretch. -/
theorem count_zero (M : ℕ → Prop) (a : ℕ) : count M a 0 = 0 := by
  classical
  unfold count
  rw [Finset.range_zero, Finset.filter_empty, Finset.card_empty]

/-- One more position that has `M`: the count grows by one. -/
theorem count_succ_of_pos {M : ℕ → Prop} {a w : ℕ} (h : M (a + w)) : count M a (w + 1) = count M a w + 1 := by
  classical
  unfold count
  rw [Finset.range_add_one, Finset.filter_insert, if_pos h, Finset.card_insert_of_notMem]
  intro hm
  exact absurd (Finset.mem_range.mp (Finset.mem_filter.mp hm).1) (lt_irrefl w)

/-- One more position that does not have `M`: the count stays. -/
theorem count_succ_of_neg {M : ℕ → Prop} {a w : ℕ} (h : ¬ M (a + w)) : count M a (w + 1) = count M a w := by
  classical
  unfold count
  rw [Finset.range_add_one, Finset.filter_insert, if_neg h]

/-- A stretch cut in two: by induction on the length of the second part. -/
theorem count_add (M : ℕ → Prop) (a L w : ℕ) : count M a (L + w) = count M a L + count M (a + L) w := by
  induction w with
  | zero => rw [count_zero, Nat.add_zero, Nat.add_zero]
  | succ w ih =>
    by_cases h : M (a + (L + w))
    · rw [← Nat.add_assoc, count_succ_of_pos h, ih, count_succ_of_pos (by rwa [Nat.add_assoc]), Nat.add_assoc]
    · rw [← Nat.add_assoc, count_succ_of_neg h, ih, count_succ_of_neg (by rwa [Nat.add_assoc])]

/-- A count over `w` positions is at most `w`. -/
theorem count_le (M : ℕ → Prop) (a w : ℕ) : count M a w ≤ w := by
  classical
  unfold count
  exact (Finset.card_filter_le _ _).trans (le_of_eq (Finset.card_range w))

/-- The inclusive rank of position `L + i`: the positions `< L` with `M`, and those among `L, …, L + i`. -/
theorem rank_add (M : ℕ → Prop) (L i : ℕ) : rank M (L + i) = count M 0 L + count M L (i + 1) := by
  unfold rank
  rw [Nat.add_assoc, count_add, Nat.zero_add]

/-- The positions `< L + w` of rank at most `k`: those `< L`, and those among `L, …, L + w - 1`. -/
theorem below_add (M : ℕ → Prop) (L w k : ℕ) :
    below M (L + w) k = below M L k + count (fun n => rank M n ≤ k) L w := by
  unfold below
  rw [count_add, Nat.zero_add]

/-- At most `L` positions lie below `L`. -/
theorem below_le (M : ℕ → Prop) (L k : ℕ) : below M L k ≤ L := count_le _ _ _

open Classical in
/-- A count over `w` positions as the size of a subset of `Fin w`. -/
theorem count_eq_card_fin (M : ℕ → Prop) (a w : ℕ) :
    count M a w = (Finset.univ.filter fun i : Fin w => M (a + i.val)).card := by
  unfold count
  rw [Finset.card_filter, Finset.card_filter, Fin.sum_univ_eq_sum_range (fun j => if M (a + j) then 1 else 0) w]

open Idealize.ShloMosaic in
/-- The clamp's literal. -/
theorem ofBits_thirty_three : Ideal.ofBits .f32 0x42040000#32 = ((33 : ℝ) : EReal) := by
  simp [Ideal.ofBits, Ideal.ieee, -EReal.coe_mul]
  norm_num

end Cert.Count
-- ==== Proof.Fold.lean ====
/-
  The carried pair after `c` chunks, and the stored block, read at an index.

  Write `M` for "inside the ball around the tile's query row `r`".  Before chunk `c` the carried count is the number of
  sources `< 256 c` with `M`, and slot `k` holds the number of sources `< 256 c` of inclusive rank at most `k`.  Inside
  chunk `c` the prefix count of column `i` plus the carried count is the inclusive rank of source `256 c + i`; clamping
  it at 33 does not change whether it is below `k + 1 ≤ 32`; so slot `k` grows by the number of the chunk's sources of
  rank at most `k`, and the carried count by the number of the chunk's sources with `M`.  Sixteen chunks make 4096
  sources; the last update is converted to integers (every count is at most 4096) and filled.
-/
import proofs.«426870_j37014028157086_3_alg».proof.Proof.CumValue
import proofs.«426870_j37014028157086_3_alg».proof.Proof.StepValue
import proofs.«426870_j37014028157086_3_alg».proof.Proof.FoldCount

noncomputable section

namespace Cert.KernelIdeal.Chunks

open Idealize.ShloMosaic Idealize.ShloMosaic.ValueIdx Cert.KernelIdeal Cert.KernelIdeal.Gen Cert.Count

/-- The indicator of a true statement is one. -/
theorem ind_pos {P : Prop} (h : P) : ind P = 1 := by
  unfold ind
  exact if_pos h

/-- The indicator of a false statement is zero. -/
theorem ind_neg {P : Prop} (h : ¬ P) : ind P = 0 := by
  unfold ind
  exact if_neg h

open Classical in
/-- A sum of indicators over a finite set is the number of its members at which the statement holds. -/
theorem sum_ind_finset {ι : Type} (P : ι → Prop) (s : Finset ι) :
    ∑ i ∈ s, ind (P i) = ((((s.filter P).card : ℕ) : ℝ) : EReal) := by
  induction s using Finset.induction_on with
  | empty => simp
  | insert a s ha ih =>
    rw [Finset.sum_insert ha, ih, Finset.filter_insert]
    by_cases h : P a
    · rw [ind_pos h, if_pos h, Finset.card_insert_of_notMem (fun hm => ha (Finset.mem_filter.mp hm).1), Nat.cast_add,
        Nat.cast_one, EReal.coe_add, EReal.coe_one, add_comm]
    · rw [ind_neg h, if_neg h, zero_add]

/-- Clamping a rank at 33 does not change whether it is below a threshold `k + 1 ≤ 32`. -/
theorem clamp_lt (x k : ℕ) (hk : k < 32) :
    (min (((x : ℕ) : ℝ) : EReal) (Ideal.ofBits .f32 0x42040000#32) < (((k + 1 : ℕ) : ℝ) : EReal)) ↔ x ≤ k := by
  rw [ofBits_thirty_three, min_lt_iff, EReal.coe_lt_coe_iff, EReal.coe_lt_coe_iff]
  constructor
  · rintro (h | h)
    · exact Nat.lt_succ_iff.mp (Nat.cast_lt.mp h)
    · exfalso
      have h1 : ((k + 1 : ℕ) : ℝ) ≤ ((33 : ℕ) : ℝ) := Nat.cast_le.mpr (by omega)
      have h2 : ((33 : ℕ) : ℝ) = (33 : ℝ) := by norm_num
      rw [h2] at h1
      exact absurd h (not_lt.mpr h1)
  · intro h
    exact Or.inl (Nat.cast_lt.mpr (Nat.lt_succ_iff.mpr h))

/-- One chunk more, the carried count: the chunk's sources inside the ball are added. -/
theorem step_fst (c : ℕ) (hc : c < 16) (v1 : FVec Ideal S3x4096 .f32) (v4 v5 v6 v11 : FVec Ideal S128x1 .f32)
    (off : FVec Ideal S128x1 .f32) (r : Fin 128)
    (hoff : (off (ix2 r (0 : Fin 1)) : EReal) = (((count (vBall v1 v4 v5 v6 v11 r) 0 (256 * c) : ℕ) : ℝ) : EReal)) :
    (offNext off (cumAt c v1 v4 v5 v6 v11 (k0_pay8 (F := Ideal))) (ix2 r (0 : Fin 1)) : EReal)
      = (((count (vBall v1 v4 v5 v6 v11 r) 0 (256 * (c + 1)) : ℕ) : ℝ) : EReal) := by
  have h255 : (255 : Fin 256).val + 1 = 256 := rfl
  rw [offNext_apply, hoff, cumAt_apply c hc, ← EReal.coe_add, ← Nat.cast_add, h255, Nat.mul_succ, count_add,
    Nat.zero_add]

/-- One chunk more, slot `k`: the chunk's sources of inclusive rank at most `k` are added. -/
theorem step_snd (c : ℕ) (hc : c < 16) (v1 : FVec Ideal S3x4096 .f32) (v4 v5 v6 v11 : FVec Ideal S128x1 .f32)
    (off : FVec Ideal S128x1 .f32) (tot : FVec Ideal S128x32 .f32) (r : Fin 128) (k : Fin 32)
    (hoff : (off (ix2 r (0 : Fin 1)) : EReal) = (((count (vBall v1 v4 v5 v6 v11 r) 0 (256 * c) : ℕ) : ℝ) : EReal))
    (htot : (tot (ix2 r k) : EReal) = (((below (vBall v1 v4 v5 v6 v11 r) (256 * c) k.val : ℕ) : ℝ) : EReal)) :
    (totNext (k0_pay9 (F := Ideal)) tot (rcOf off (cumAt c v1 v4 v5 v6 v11 (k0_pay8 (F := Ideal)))) (ix2 r k) : EReal)
      = (((below (vBall v1 v4 v5 v6 v11 r) (256 * (c + 1)) k.val : ℕ) : ℝ) : EReal) := by
  have hterm : ∀ i : Fin 256,
      ind ((rcOf off (cumAt c v1 v4 v5 v6 v11 (k0_pay8 (F := Ideal))) (ix2 r i) : EReal)
          < (((k.val + 1 : ℕ) : ℝ) : EReal))
        = ind ((fun n => rank (vBall v1 v4 v5 v6 v11 r) n ≤ k.val) (256 * c + i.val)) := by
    intro i
    rw [rcOf_apply, cumAt_apply c hc, hoff, ← EReal.coe_add, ← Nat.cast_add]
    refine congrArg ind (propext ?_)
    rw [clamp_lt _ _ k.isLt]
    show _ ↔ rank (vBall v1 v4 v5 v6 v11 r) (256 * c + i.val) ≤ k.val
    rw [rank_add, Nat.add_comm]
  rw [totNext_apply, htot, Finset.sum_congr rfl (fun i _ => hterm i), sum_ind_finset,
    ← count_eq_card_fin (fun n => rank (vBall v1 v4 v5 v6 v11 r) n ≤ k.val) (256 * c) 256, ← EReal.coe_add, ← Nat.cast_add, Nat.mul_succ,
    below_add]

/-- After `c` chunks the carried count of row `r` is the number of sources `< 256 c` inside the ball. -/
theorem stAt_fst (c : ℕ) (hc : c ≤ 16) (v1 : FVec Ideal S3x4096 .f32) (v4 v5 v6 v11 : FVec Ideal S128x1 .f32) (r : Fin 128) :
    ((stAt v1 v4 v5 v6 v11 (k0_pay8 (F := Ideal)) (k0_pay9 (F := Ideal)) c).1 (ix2 r (0 : Fin 1)) : EReal)
      = (((count (vBall v1 v4 v5 v6 v11 r) 0 (256 * c) : ℕ) : ℝ) : EReal) := by
  induction c with
  | zero =>
    show (k0_pay10 (F := Ideal) (ix2 r (0 : Fin 1)) : EReal) = _
    rw [init_fst, Nat.mul_zero, Nat.le_zero.mp (count_le _ 0 0), Nat.cast_zero, EReal.coe_zero]
  | succ c ih =>
    exact step_fst c (by omega) v1 v4 v5 v6 v11 _ r (ih (by omega))

/-- After `c` chunks slot `k` of row `r` counts the sources `< 256 c` of inclusive rank at most `k`. -/
theorem stAt_snd (c : ℕ) (hc : c ≤ 16) (v1 : FVec Ideal S3x4096 .f32) (v4 v5 v6 v11 : FVec Ideal S128x1 .f32) (r : Fin 128)
    (k : Fin 32) :
    ((stAt v1 v4 v5 v6 v11 (k0_pay8 (F := Ideal)) (k0_pay9 (F := Ideal)) c).2 (ix2 r k) : EReal)
      = (((below (vBall v1 v4 v5 v6 v11 r) (256 * c) k.val : ℕ) : ℝ) : EReal) := by
  induction c with
  | zero =>
    show (k0_pay11 (F := Ideal) (ix2 r k) : EReal) = _
    rw [init_snd, Nat.mul_zero, Nat.le_zero.mp (below_le _ 0 _), Nat.cast_zero, EReal.coe_zero]
  | succ c ih =>
    exact step_snd c (by omega) v1 v4 v5 v6 v11 _ _ r k (stAt_fst c (by omega) v1 v4 v5 v6 v11 r) (ih (by omega))

/-- The stored block at row `r`, slot `k`. -/
theorem stored_apply (v0 : Vec Ideal S1x3x4096 .f32) (v2 : Vec Ideal S1x128x3 .f32) (r : Fin 128) (k : Fin 32) :
    stored v0 v2 (ix3 (0 : Fin 1) r k)
      = Cert.Spec.fill (below (vBall (k0_pay2 v0) (k0_pay4 v2) (k0_pay5 v2) (k0_pay6 v2) (k0_pay7 v2) r) 4096 k.val)
          (below (vBall (k0_pay2 v0) (k0_pay4 v2) (k0_pay5 v2) (k0_pay6 v2) (k0_pay7 v2) r) 4096 0) := by
  have e : 256 * (15 + 1) = 4096 := by norm_num
  have hs : ∀ k' : Fin 32,
      (totNext (k0_pay9 (F := Ideal))
          (stAt (k0_pay2 v0) (k0_pay4 v2) (k0_pay5 v2) (k0_pay6 v2) (k0_pay7 v2) (k0_pay8 (F := Ideal)) (k0_pay9 (F := Ideal)) 15).2
          (rcOf (stAt (k0_pay2 v0) (k0_pay4 v2) (k0_pay5 v2) (k0_pay6 v2) (k0_pay7 v2) (k0_pay8 (F := Ideal)) (k0_pay9 (F := Ideal)) 15).1
            (cumAt 15 (k0_pay2 v0) (k0_pay4 v2) (k0_pay5 v2) (k0_pay6 v2) (k0_pay7 v2) (k0_pay8 (F := Ideal))))
          (ix2 r k') : EReal)
        = (((below (vBall (k0_pay2 v0) (k0_pay4 v2) (k0_pay5 v2) (k0_pay6 v2) (k0_pay7 v2) r) 4096 k'.val : ℕ) : ℝ) : EReal) := by
    intro k'
    rw [← e]
    exact step_snd 15 (by norm_num) _ _ _ _ _ _ _ r k' (stAt_fst 15 (by norm_num) _ _ _ _ _ r)
      (stAt_snd 15 (by norm_num) _ _ _ _ _ r k')
  unfold stored
  rw [final_apply, hs k, hs 0, fptosi_nat _ (below_le _ _ _), fptosi_nat _ (below_le _ _ _)]
  rfl

end Cert.KernelIdeal.Chunks

end
-- ==== Proof.TileRead.lean ====
/-
  The tile's ball is the points' ball: when the tile's source block holds batch `b`'s points transposed and its query
  block's row `r` holds point `q` of that batch, source `n` is inside the ball around row `r` exactly when it is inside
  the ball around `q`.

  The body's values are reads of the two blocks: the source matrix (3 × 4096) is the source block with its leading unit
  axis dropped; the three query columns (128 × 1) are the columns 0, 1, 2 of the query block with its leading unit axis
  dropped; the squared-norm column is, entrywise, `(q₀·q₀ + q₁·q₁) + q₂·q₂` of those three. Substituting the reads, the
  body's squared distance and the points' squared distance are the same expression.
-/
import proofs.«426870_j37014028157086_3_alg».proof.Proof.TileSpec
import Idealize.ShloMosaic.Lib.Pipeline.Value
import Idealize.ShloMosaic.Lib.ValueLayout

noncomputable section

namespace Cert.KernelIdeal.Chunks

open Idealize.ShloMosaic Idealize.ShloMosaic.ValueIdx Cert.KernelIdeal Cert.KernelIdeal.Gen Cert.Count

/-- The source matrix at `(a, n)` is the source block at `(0, a, n)`. -/
theorem pay2_read (x0 : Vec Ideal S1x3x4096 .f32) (a : Fin 3) (n : Fin 4096) :
    k0_pay2 x0 (ix2 a n) = x0 (ix3 (0 : Fin 1) a n) :=
  shapeCast_1ab_ab_apply x0 shapeCasts_S1x3x4096_S3x4096 a n

/-- The query matrix at `(r, a)` is the query block at `(0, r, a)`. -/
theorem pay3_read (x1 : Vec Ideal S1x128x3 .f32) (r : Fin 128) (a : Fin 3) :
    k0_pay3 x1 (ix2 r a) = x1 (ix3 (0 : Fin 1) r a) :=
  shapeCast_1ab_ab_apply x1 shapeCasts_S1x128x3_S128x3 r a

/-- The first query column at row `r` is the query block at `(0, r, 0)`. -/
theorem pay4_read (x1 : Vec Ideal S1x128x3 .f32) (r : Fin 128) :
    k0_pay4 x1 (ix2 r (0 : Fin 1)) = x1 (ix3 (0 : Fin 1) r (0 : Fin 3)) :=
  (slice2_axis1_apply 0 (k0_pay3 x1) slices_S128x3_o0_0_S128x1 r (0 : Fin 1) (0 : Fin 3) rfl).trans
    (pay3_read x1 r 0)

/-- The second query column at row `r` is the query block at `(0, r, 1)`. -/
theorem pay5_read (x1 : Vec Ideal S1x128x3 .f32) (r : Fin 128) :
    k0_pay5 x1 (ix2 r (0 : Fin 1)) = x1 (ix3 (0 : Fin 1) r (1 : Fin 3)) :=
  (slice2_axis1_apply 1 (k0_pay3 x1) slices_S128x3_o0_1_S128x1 r (0 : Fin 1) (1 : Fin 3) rfl).trans
    (pay3_read x1 r 1)

/-- The third query column at row `r` is the query block at `(0, r, 2)`. -/
theorem pay6_read (x1 : Vec Ideal S1x128x3 .f32) (r : Fin 128) :
    k0_pay6 x1 (ix2 r (0 : Fin 1)) = x1 (ix3 (0 : Fin 1) r (2 : Fin 3)) :=
  (slice2_axis1_apply 2 (k0_pay3 x1) slices_S128x3_o0_2_S128x1 r (0 : Fin 1) (2 : Fin 3) rfl).trans
    (pay3_read x1 r 2)

/-- The squared-norm column at row `r`, entrywise from the three query columns. -/
theorem pay7_read (x1 : Vec Ideal S1x128x3 .f32) (r : Fin 128) :
    (k0_pay7 x1 (ix2 r (0 : Fin 1)) : EReal)
      = ((k0_pay4 x1 (ix2 r (0 : Fin 1)) : EReal) * k0_pay4 x1 (ix2 r (0 : Fin 1))
          + k0_pay5 x1 (ix2 r (0 : Fin 1)) * k0_pay5 x1 (ix2 r (0 : Fin 1)))
        + k0_pay6 x1 (ix2 r (0 : Fin 1)) * k0_pay6 x1 (ix2 r (0 : Fin 1)) :=
  rfl

theorem vBall_tile (x0 : Vec Ideal S1x3x4096 .f32) (x1 : Vec Ideal S1x128x3 .f32) (X : FVec Ideal Cert.Spec.SX .f32)
    (b : Fin 8) (q : Fin 4096) (r : Fin 128)
    (h0 : ∀ (a : Fin 3) (n : Fin 4096), (x0 (ix3 (0 : Fin 1) a n) : EReal) = X (ix3 b n a))
    (h1 : ∀ a : Fin 3, (x1 (ix3 (0 : Fin 1) r a) : EReal) = X (ix3 b q a)) (n : ℕ) :
    vBall (k0_pay2 x0) (k0_pay4 x1) (k0_pay5 x1) (k0_pay6 x1) (k0_pay7 x1) r n ↔ Cert.Spec.inBall X b q n := by
  have e2 : ∀ (a : Fin 3) (m : Fin 4096), (k0_pay2 x0 (ix2 a m) : EReal) = X (ix3 b m a) :=
    fun a m => (pay2_read x0 a m).trans (h0 a m)
  have e4 : (k0_pay4 x1 (ix2 r (0 : Fin 1)) : EReal) = X (ix3 b q (0 : Fin 3)) := (pay4_read x1 r).trans (h1 0)
  have e5 : (k0_pay5 x1 (ix2 r (0 : Fin 1)) : EReal) = X (ix3 b q (1 : Fin 3)) := (pay5_read x1 r).trans (h1 1)
  have e6 : (k0_pay6 x1 (ix2 r (0 : Fin 1)) : EReal) = X (ix3 b q (2 : Fin 3)) := (pay6_read x1 r).trans (h1 2)
  have e7 : (k0_pay7 x1 (ix2 r (0 : Fin 1)) : EReal)
      = ((X (ix3 b q (0 : Fin 3)) : EReal) * X (ix3 b q (0 : Fin 3))
          + X (ix3 b q (1 : Fin 3)) * X (ix3 b q (1 : Fin 3)))
        + X (ix3 b q (2 : Fin 3)) * X (ix3 b q (2 : Fin 3)) := by
    rw [pay7_read, e4, e5, e6]
  unfold vBall Cert.Spec.inBall
  refine exists_congr fun h => ?_
  unfold vDist2 Cert.Spec.dist2 Cert.Spec.sqNorm Cert.Spec.dot3 Cert.Spec.coord
  rw [e7, e4, e5, e6, e2 0, e2 1, e2 2]

end Cert.KernelIdeal.Chunks

end
-- ==== Proof.KernelArray.lean ====
/-
  From blocks to the array: grid point `(b, i)` writes rows `128 i … 128 i + 127` of batch `b`, and the 256 points
  cover the result; so after the run the result array is the common value `Spec.G` of the argument.

  A grid point `t` is the pair `(b, i) = (t / 32, t % 32)`. Its source block is batch `b` of the points with the last
  two axes exchanged (all 4096 sources, as a 3 × 4096 matrix); its query block is rows `128 i … 128 i + 127` of batch
  `b`; its result block is rows `128 i … 128 i + 127` of batch `b` of the result. Row `r` of the tile is therefore
  query point `q = 128 i + r`, the ball the body counts in is the ball around `q`, and slot `k` of that row is
  `Spec.slot X b q k`: the block the point writes back is the restriction of `Spec.G X` to the block. Every result
  index `(b, p, k)` lies in the block of the point `(b, p / 128)`, so the blocks cover the array.
-/
import proofs.«426870_j37014028157086_3_alg».proof.Proof.StoredEq
import proofs.«426870_j37014028157086_3_alg».proof.Proof.Fold
import proofs.«426870_j37014028157086_3_alg».proof.Proof.TileRead
import Idealize.ShloMosaic.Lib.Pipeline.Value
import Idealize.ShloMosaic.Lib.ValueLayout

noncomputable section

namespace Cert.KernelIdeal.Array

open Idealize.ShloMosaic Idealize.ShloMosaic.TcCoe Idealize.ShloMosaic.ValueIdx Idealize.SL.Sem
open Cert.KernelIdeal Cert.KernelIdeal.Gen Cert.KernelIdeal.Chunks Cert.Count

variable (m : (ℓ : Loc nD τ sig) → Buf (Elt Ideal) ℓ) (ρ : Dev nD → PrngReg)

/-! ## Block by block: what each point writes back, and the arrays after the run -/

/-- What grid point `t` writes back to the result: the body's stored block of the two input blocks at `t`. -/
theorem written_back (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- After the run the result array is the array built from the 256 write-backs. -/
theorem result_after (r : PUnit × MemSt nD τ sig (Elt Ideal)) (h : Pipeline.FramePost cfgs (dats m) 0 (V m) r)
    (c : Dev nD) : r.2.mem ((c : Thread nD τ).loc main_v1) = (dats m 0 c).arrAt 2 cfg0.N := (h c).1 2

/-- The points (staged as queries, never written) are unchanged. -/
theorem kept_main_arg0 (r : PUnit × MemSt nD τ sig (Elt Ideal)) (h : Pipeline.FramePost cfgs (dats m) 0 (V m) r)
    (c : Dev nD) : r.2.mem ((c : Thread nD τ).loc main_arg0) = m ((c : Thread nD τ).loc main_arg0) :=
  ((h c).1 1).trans (((dats m 0 c).arrAt_in 1 rfl _).trans ((A_eq m c 1).trans (V_main_arg0 m c)))

/-- The second argument (which the kernel never touches) is unchanged. -/
theorem kept_main_arg1 (r : PUnit × MemSt nD τ sig (Elt Ideal)) (h : Pipeline.FramePost cfgs (dats m) 0 (V m) r)
    (c : Dev nD) : r.2.mem ((c : Thread nD τ).loc main_arg1) = m ((c : Thread nD τ).loc main_arg1) :=
  ((h c).2 main_arg1 (Pipeline.mem_restRefs_of main_arg1 (by decide) (by decide))).trans (V_main_arg1 m c)

/-- The run, block by block: the result array is the one built from the write-backs, the arguments are unchanged. -/
theorem run_blocks : θ_run (defs (F := Ideal)) (onTc (τ := τ) (main (F := Ideal))) ⟨m, fun _ => 0, ρ⟩ fun r => ∀ c : Dev nD,
      r.2.mem ((c : Thread nD τ).loc main_v1) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨result_after m r h c, kept_main_arg0 m r h c, kept_main_arg1 m r h c⟩)
    (run_main m ρ)

/-! ## The input blocks of a grid point, as entries of the points -/

/-- When the grid is entered the sources' array holds the points with their last two axes exchanged. -/
theorem sources_transposed (c : Dev nD) : (V m c main_v0 : S8x3x4096.Idx → EReal)
    = transpose S8x3x4096 [0, 2, 1] (m ((c : Thread nD τ).loc main_arg0)) transposes_S8x4096x3_S8x3x4096_0_2_1 := by
  dsimp only [Gen.V, Gen.hostOps0]; after_results

/-- The block indices at grid point `t = 32 b + i`: the sources' block is `(b, 0, 0)`, the queries' and the result's
    blocks are `(b, i, 0)` (decided over the 256 points). -/
theorem block_index : ∀ t : Fin cfg0.N,
    win0_0.index t (0 : Fin 3) = t.val / 32 ∧ win0_0.index t (1 : Fin 3) = 0 ∧ win0_0.index t (2 : Fin 3) = 0
    ∧ win0_1.index t (0 : Fin 3) = t.val / 32 ∧ win0_1.index t (1 : Fin 3) = t.val % 32 ∧ win0_1.index t (2 : Fin 3) = 0
    ∧ win0_2.index t (0 : Fin 3) = t.val / 32 ∧ win0_2.index t (1 : Fin 3) = t.val % 32 ∧ win0_2.index t (2 : Fin 3) = 0 :=
  (by decide +kernel : ∀ t : Fin grid0.N, _)

/-- There are 256 grid points. -/
theorem point_lt (t : Fin cfg0.N) : t.val < 256 := lt_of_lt_of_eq t.isLt N_0

/-- The sources' block at point `t`, at coordinate `a` and source `n`, is coordinate `a` of point `n` of batch
    `b = t / 32`: the block's entry sits at `(b · 1 + 0, 0 · 3 + a, 0 · 4096 + n)` of the exchanged array. -/
theorem source_block_read (c : Dev nD) (t : Fin cfg0.N) (a : Fin 3) (n : Fin 4096) (b : Fin 8) (hb : b.val = t.val / 32) :
    ((iblk m c 0 t : Vec Ideal S1x3x4096 .f32) (ix3 (0 : Fin 1) a n) : EReal)
      = (m ((c : Thread nD τ).loc main_arg0) : S8x4096x3.Idx → EReal) (ix3 b n a) := by
  obtain ⟨e0, e1, e2, -⟩ := block_index t
  unfold iblk
  rw [View.read_apply]
  show (V m c main_v0 : S8x3x4096.Idx → EReal) _ = _
  rw [sources_transposed]
  refine (congrArg _ (?_ : _ = ix3 b a n)).trans (transpose_ix3_021_apply _ _ b a n)
  funext d; apply Fin.ext
  match d with
  | ⟨0, _⟩ => show win0_0.index t (0 : Fin 3) * 1 + 1 * 0 = b.val; omega
  | ⟨1, _⟩ => show win0_0.index t (1 : Fin 3) * 3 + 1 * a.val = a.val; omega
  | ⟨2, _⟩ => show win0_0.index t (2 : Fin 3) * 4096 + 1 * n.val = n.val; omega

/-- The queries' block at point `t`, at row `r` and coordinate `a`, is coordinate `a` of point `q = 128 i + r` of
    batch `b`, where `(b, i) = (t / 32, t % 32)`: the entry sits at `(b · 1 + 0, i · 128 + r, 0 · 3 + a)` of the points. -/
theorem query_block_read (c : Dev nD) (t : Fin cfg0.N) (r : Fin 128) (a : Fin 3) (b : Fin 8) (q : Fin 4096)
    (hb : b.val = t.val / 32) (hq : q.val = 128 * (t.val % 32) + r.val) :
    ((iblk m c 1 t : Vec Ideal S1x128x3 .f32) (ix3 (0 : Fin 1) r a) : EReal)
      = (m ((c : Thread nD τ).loc main_arg0) : S8x4096x3.Idx → EReal) (ix3 b q a) := by
  obtain ⟨-, -, -, e0, e1, e2, -⟩ := block_index t
  unfold iblk
  rw [View.read_apply]
  show (V m c main_arg0 : S8x4096x3.Idx → EReal) _ = _
  rw [V_main_arg0]
  refine congrArg _ ?_
  funext d; apply Fin.ext
  match d with
  | ⟨0, _⟩ => show win0_1.index t (0 : Fin 3) * 1 + 1 * 0 = b.val; omega
  | ⟨1, _⟩ => show win0_1.index t (1 : Fin 3) * 128 + 1 * r.val = q.val; omega
  | ⟨2, _⟩ => show win0_1.index t (2 : Fin 3) * 3 + 1 * a.val = a.val; omega

/-! ## The block a point writes back is its block of `Spec.G` -/

/-- Over any two blocks that hold batch `b`'s points exchanged and, in row `r`, point `q` of that batch: the stored
    value at row `r`, slot `k` is slot `k` of query `q` — the tile's ball is the points' ball around `q`, source by
    source, so the two counts of sources of rank at most `k` (and at most `0`) agree. -/
theorem stored_slot (x0 : Vec Ideal S1x3x4096 .f32) (x1 : Vec Ideal S1x128x3 .f32) (X : FVec Ideal Cert.Spec.SX .f32)
    (b : Fin 8) (q : Fin 4096) (r : Fin 128) (k : Fin 32)
    (h0 : ∀ (a : Fin 3) (n : Fin 4096), (x0 (ix3 (0 : Fin 1) a n) : EReal) = X (ix3 b n a))
    (h1 : ∀ a : Fin 3, (x1 (ix3 (0 : Fin 1) r a) : EReal) = X (ix3 b q a)) :
    stored x0 x1 (ix3 (0 : Fin 1) r k) = Cert.Spec.slot X b q k := by
  rw [stored_apply]
  unfold Cert.Spec.slot
  rw [below_congr k.val (fun j _ => vBall_tile x0 x1 X b q r h0 h1 j),
    below_congr 0 (fun j _ => vBall_tile x0 x1 X b q r h0 h1 j)]

/-- Zero offsets, however spelt. -/
theorem zero_offsets : (![0, 0, 0] : Fin 3 → Nat) = fun _ => 0 := funext fun a => by fin_cases a <;> rfl

/-- The stored block of point `t`'s input blocks, at an index `(0, r, k)` of the block, is `Spec.G` of the points at
    the result index the block puts it at, `(b, 128 i + r, k)` with `(b, i) = (t / 32, t % 32)`. -/
theorem tile_eq (c : Dev nD) (t : Fin cfg0.N) (y : S1x128x32.Idx) :
    stored (iblk m c 0 t) (iblk m c 1 t) y
      = Cert.Spec.G (m ((c : Thread nD τ).loc main_arg0)) (((cfg0.win 2).blk t).view.emb y) := by
  obtain ⟨-, -, -, -, -, -, e0, e1, e2⟩ := block_index t
  have ht := point_lt t
  obtain ⟨u, r, k, rfl⟩ : ∃ (u : Fin 1) (r : Fin 128) (k : Fin 32), y = ix3 u r k := ⟨y 0, y 1, y 2, eq_ix3 y⟩
  obtain rfl : u = 0 := Subsingleton.elim _ _
  have hr := r.isLt
  refine (stored_slot (iblk m c 0 t) (iblk m c 1 t) (m ((c : Thread nD τ).loc main_arg0))
    ⟨t.val / 32, by omega⟩ ⟨128 * (t.val % 32) + r.val, by omega⟩ r k
    (fun a n => source_block_read m c t a n _ rfl) (fun a => query_block_read m c t r a _ _ rfl rfl)).trans ?_
  have j0 : (⟨t.val / 32, by omega⟩ : Fin 8) = ((cfg0.win 2).blk t).view.emb (ix3 (0 : Fin 1) r k) 0 :=
    Fin.ext (by show t.val / 32 = win0_2.index t (0 : Fin 3) * 1 + 1 * 0; omega)
  have j1 : (⟨128 * (t.val % 32) + r.val, by omega⟩ : Fin 4096)
      = ((cfg0.win 2).blk t).view.emb (ix3 (0 : Fin 1) r k) 1 :=
    Fin.ext (by show 128 * (t.val % 32) + r.val = win0_2.index t (1 : Fin 3) * 128 + 1 * r.val; omega)
  have j2 : k = ((cfg0.win 2).blk t).view.emb (ix3 (0 : Fin 1) r k) 2 :=
    Fin.ext (by show k.val = win0_2.index t (2 : Fin 3) * 32 + 1 * k.val; omega)
  exact congr (congr (congrArg (Cert.Spec.slot (m ((c : Thread nD τ).loc main_arg0))) j0) j1) j2

/-- What point `t` writes back is block `t` of `Spec.G` of the points. -/
theorem written_eq (c : Dev nD) (t : Fin cfg0.N) :
    (dats m 0 c).flushed 2 t
      = ((cfg0.win 2).blk t).view.read (Elt Ideal) (Cert.Spec.G (m ((c : Thread nD τ).loc main_arg0))) := by
  rw [written_back, Chunks.out_eq, View.canon_unit_zero zero_offsets, View.ld_unit_zero (S := S1x3x4096) zero_offsets,
    View.ld_unit_zero (S := S1x128x3) zero_offsets]
  funext y
  exact tile_eq m c t y

/-! ## The blocks cover the result -/

/-- A result index is in point `t`'s block iff each coordinate is in the block's range on its axis. -/
theorem mem_tile (t : Fin cfg0.N) (i : S8x4096x32.Idx) :
    i ∈ ((cfg0.win 2).blk t).view.set ↔ ∀ a : Fin 3, win0_2.index t a * S1x128x32.size a ≤ (i a).val
      ∧ (i a).val < win0_2.index t a * S1x128x32.size a + S1x128x32.size a := by
  show i ∈ ((View.whole main_v1).slice (win0_2.rect t)).set ↔ _
  rw [View.set_slice_whole, Rect.mem_set_unit]
  exact Iff.rfl

/-- Every result index `(b, p, k)` lies in the block of the point `(b, p / 128)`, which writes back. -/
theorem tiles_cover (i : S8x4096x32.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 32 := (i 2).isLt
  obtain ⟨t, tv⟩ : ∃ t : Fin cfg0.N, t.val = 32 * (i 0).val + (i 1).val / 128 :=
    ⟨⟨32 * (i 0).val + (i 1).val / 128, by rw [show cfg0.N = 256 from N_0]; omega⟩, rfl⟩
  obtain ⟨-, -, -, -, -, -, e0, e1, e2⟩ := block_index t
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 32 ≤ (i 2).val ∧ (i 2).val < win0_2.index t (2 : Fin 3) * 32 + 32; omega

/-- So the array built from the write-backs is `Spec.G` of the points. -/
theorem array_eq (c : Dev nD) :
    (dats m 0 c).arrAt 2 cfg0.N = Cert.Spec.G (m ((c : Thread nD τ).loc main_arg0)) :=
  (dats m 0 c).arrAt_eq_of_cover 2 (Cert.Spec.G (m ((c : Thread nD τ).loc main_arg0)))
    (fun t _ => written_eq m c t) tiles_cover

/-! ## The run -/

/-- Every weakly fair execution of the kernel's program ends with the result array at `Spec.G` of the first argument
    and the arguments unchanged. -/
theorem run : θ_run (defs (F := Ideal)) (onTc (τ := τ) (main (F := Ideal))) ⟨m, fun _ => 0, ρ⟩ fun r => ∀ c : Dev nD,
      r.2.mem ((c : Thread nD τ).loc main_v1) = Cert.Spec.G (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array_eq m c), (h c).2⟩) (run_blocks m ρ)

end Cert.KernelIdeal.Array

end
-- ==== Proof.SortCount.lean ====
/-
  Sorting the keys of one query.  The key of source `n` is `n` itself when `M n` (inside the ball) and `N` otherwise.
  Whatever permutation arranges the keys in non-decreasing order, position `k` of the arrangement holds
  `below M N k`: the index of the `(k+1)`-th source with `M`, or `N` when there are not that many.

  The argument.  Write `v = below M N k`.  The rank never decreases along the line, so the positions `n < N` of rank at
  most `k` are exactly the positions `n < v`.  Hence at most `k` sources before `v` have `M`, and, when `v < N`, at
  least `k + 1` sources up to `v` have `M`.  A key is either its own position or `N ≥ v`, so at most `k` keys are
  `< v` and more than `k` keys are `≤ v`.  A bijection does not change these two numbers, and along a non-decreasing
  arrangement the positions holding a key `< v` (or `≤ v`) form an initial stretch: the first stretch has at most `k`
  places, so it misses place `k`; the second has more than `k`, so it contains place `k`.
-/
import proofs.«426870_j37014028157086_3_alg».proof.Proof.Count
import Mathlib.Data.Fintype.Card
import Mathlib.Data.Finset.Image
import Mathlib.Order.Interval.Finset.Fin

namespace Cert.Count

/-- A finite set of naturals closed under going down is the initial stretch `{0, …, c - 1}`, `c` its size. -/
theorem mem_iff_lt_card_of_downClosed (S : Finset ℕ) (hS : ∀ n ∈ S, ∀ m, m ≤ n → m ∈ S) (n : ℕ) :
    n ∈ S ↔ n < S.card := by
  have hsub : S ⊆ Finset.range S.card := by
    intro a ha
    have h1 : Finset.range (a + 1) ⊆ S := fun m hm =>
      hS a ha m (Nat.lt_succ_iff.mp (Finset.mem_range.mp hm))
    have h2 := Finset.card_le_card h1
    rw [Finset.card_range] at h2
    exact Finset.mem_range.mpr h2
  have heq : S = Finset.range S.card :=
    Finset.eq_of_subset_of_card_le hsub (by rw [Finset.card_range])
  constructor
  · intro h
    exact Finset.mem_range.mp (hsub h)
  · intro h
    have h' : n ∈ Finset.range S.card := Finset.mem_range.mpr h
    rwa [← heq] at h'

/-- The inclusive rank never decreases along the line. -/
theorem rank_mono (M : ℕ → Prop) {m n : ℕ} (h : m ≤ n) : rank M m ≤ rank M n := by
  classical
  unfold rank count
  exact Finset.card_le_card (Finset.filter_subset_filter _ (Finset.range_mono (Nat.succ_le_succ h)))

/-- A count over `w` positions is at most `w`. -/
theorem count_le (P : ℕ → Prop) (a w : ℕ) : count P a w ≤ w := by
  classical
  unfold count
  exact (Finset.card_filter_le _ _).trans (Finset.card_range w).le

/-- For a property closed under going down, the positions `n < L` that have it are exactly the positions before
their number. -/
theorem iff_lt_count_of_downClosed (P : ℕ → Prop) (hP : ∀ n, P n → ∀ m, m ≤ n → P m) (L n : ℕ) (hn : n < L) :
    P n ↔ n < count P 0 L := by
  classical
  unfold count
  refine Iff.trans ?_ (mem_iff_lt_card_of_downClosed _ ?_ n)
  · rw [Finset.mem_filter, Finset.mem_range, Nat.zero_add]
    exact ⟨fun h => ⟨hn, h⟩, fun h => h.2⟩
  · intro a ha m hm
    rw [Finset.mem_filter, Finset.mem_range, Nat.zero_add] at ha ⊢
    exact ⟨lt_of_le_of_lt hm ha.1, hP a ha.2 m hm⟩

/-- There are at most `N` positions below `N`. -/
theorem below_le (M : ℕ → Prop) (N k : ℕ) : below M N k ≤ N :=
  count_le _ 0 N

/-- The positions `n < N` of rank at most `k` are exactly the positions before `below M N k`. -/
theorem rank_le_iff_lt_below (M : ℕ → Prop) (N k n : ℕ) (hn : n < N) :
    rank M n ≤ k ↔ n < below M N k :=
  iff_lt_count_of_downClosed (fun n => rank M n ≤ k) (fun _ h _ hm => le_trans (rank_mono M hm) h) N n hn

/-- At most `k` sources before `below M N k` have `M`. -/
theorem count_below_le (M : ℕ → Prop) (N k : ℕ) : count M 0 (below M N k) ≤ k := by
  classical
  rcases Nat.eq_zero_or_pos (below M N k) with h | h
  · rw [h]
    unfold count
    simp
  · obtain ⟨w, hw⟩ : ∃ w, below M N k = w + 1 := ⟨below M N k - 1, by omega⟩
    have hN := below_le M N k
    have hwN : w < N := by omega
    have hr : rank M w ≤ k := (rank_le_iff_lt_below M N k w hwN).mpr (by omega)
    rw [hw]
    exact hr

/-- When `below M N k` is a position of the line, more than `k` sources up to it have `M`. -/
theorem lt_rank_below (M : ℕ → Prop) (N k : ℕ) (h : below M N k < N) : k < rank M (below M N k) := by
  by_contra hle
  have h' := (rank_le_iff_lt_below M N k (below M N k) h).mp (Nat.le_of_not_lt hle)
  exact lt_irrefl _ h'

/-- The keys smaller than `v ≤ N` are positions before `v` with `M`: there are at most `count M 0 v` of them. -/
theorem card_key_lt_le {N : ℕ} (M : ℕ → Prop) (key : Fin N → ℕ)
    (hin : ∀ n : Fin N, M n.val → key n = n.val) (hout : ∀ n : Fin N, ¬ M n.val → key n = N)
    (v : ℕ) (hv : v ≤ N) :
    (Finset.univ.filter fun n : Fin N => key n < v).card ≤ count M 0 v := by
  classical
  unfold count
  rw [← Finset.card_image_of_injective (Finset.univ.filter fun n : Fin N => key n < v) Fin.val_injective]
  apply Finset.card_le_card
  intro j hj
  rw [Finset.mem_image] at hj
  obtain ⟨n, hn, rfl⟩ := hj
  rw [Finset.mem_filter] at hn
  rw [Finset.mem_filter, Finset.mem_range, Nat.zero_add]
  have hlt := hn.2
  by_cases hM : M n.val
  · rw [hin n hM] at hlt
    exact ⟨hlt, hM⟩
  · rw [hout n hM] at hlt
    omega

/-- The sources up to `v < N` with `M` all have a key `≤ v`. -/
theorem rank_le_card_key_le {N : ℕ} (M : ℕ → Prop) (key : Fin N → ℕ)
    (hin : ∀ n : Fin N, M n.val → key n = n.val) (v : ℕ) (hv : v < N) :
    rank M v ≤ (Finset.univ.filter fun n : Fin N => key n ≤ v).card := by
  classical
  unfold rank count
  rw [← Finset.card_image_of_injective (Finset.univ.filter fun n : Fin N => key n ≤ v) Fin.val_injective]
  apply Finset.card_le_card
  intro j hj
  rw [Finset.mem_filter, Finset.mem_range, Nat.zero_add] at hj
  rw [Finset.mem_image]
  have hjN : j < N := by omega
  refine ⟨⟨j, hjN⟩, ?_, rfl⟩
  rw [Finset.mem_filter]
  refine ⟨Finset.mem_univ _, ?_⟩
  rw [hin ⟨j, hjN⟩ hj.2]
  show j ≤ v
  omega

theorem sorted_key_eq_below {N : ℕ} (M : ℕ → Prop) (key : Fin N → ℕ)
    (hin : ∀ n : Fin N, M n.val → key n = n.val) (hout : ∀ n : Fin N, ¬ M n.val → key n = N)
    (π : Fin N → Fin N) (hπ : Function.Bijective π)
    (hmono : ∀ i j : Fin N, i < j → key (π i) ≤ key (π j)) (k : Fin N) :
    key (π k) = below M N k.val := by
  classical
  have hvN : below M N k.val ≤ N := below_le M N k.val
  generalize hv : below M N k.val = v at hvN ⊢
  have hmono' : ∀ i j : Fin N, i ≤ j → key (π i) ≤ key (π j) := by
    intro i j hij
    rcases eq_or_lt_of_le hij with h | h
    · rw [h]
    · exact hmono i j h
  -- a bijection does not change how many keys lie under a bound
  have hA : (Finset.univ.filter fun i : Fin N => key (π i) < v).card ≤ k.val := by
    have e : (Finset.univ.filter fun i : Fin N => key (π i) < v).card
        = (Finset.univ.filter fun n : Fin N => key n < v).card :=
      Finset.card_equiv (Equiv.ofBijective π hπ) (fun i => by simp)
    rw [e]
    have h1 := card_key_lt_le M key hin hout v hvN
    have h2 := count_below_le M N k.val
    rw [hv] at h2
    exact h1.trans h2
  have hB : k.val < (Finset.univ.filter fun i : Fin N => key (π i) ≤ v).card := by
    have e : (Finset.univ.filter fun i : Fin N => key (π i) ≤ v).card
        = (Finset.univ.filter fun n : Fin N => key n ≤ v).card :=
      Finset.card_equiv (Equiv.ofBijective π hπ) (fun i => by simp)
    rw [e]
    rcases Nat.lt_or_ge v N with h | h
    · have h1 := lt_rank_below M N k.val (by rw [hv]; exact h)
      rw [hv] at h1
      exact lt_of_lt_of_le h1 (rank_le_card_key_le M key hin v h)
    · have hall : (Finset.univ.filter fun n : Fin N => key n ≤ v) = Finset.univ := by
        apply Finset.filter_true_of_mem
        intro n _
        have hn := n.isLt
        by_cases hM : M n.val
        · rw [hin n hM]; omega
        · rw [hout n hM]; omega
      rw [hall, Finset.card_univ, Fintype.card_fin]
      exact k.isLt
  apply le_antisymm
  · -- more than `k` places hold a key `≤ v`, and they form an initial stretch: place `k` is one of them
    by_contra hlt
    have hlt' : v < key (π k) := Nat.lt_of_not_le hlt
    have hsub : (Finset.univ.filter fun i : Fin N => key (π i) ≤ v) ⊆ Finset.Iio k := by
      intro i hi
      rw [Finset.mem_filter] at hi
      rw [Finset.mem_Iio]
      by_contra hik
      have hki : k ≤ i := not_lt.mp hik
      have := hmono' k i hki
      omega
    have hc := Finset.card_le_card hsub
    rw [Fin.card_Iio] at hc
    omega
  · -- at most `k` places hold a key `< v`, and they form an initial stretch: place `k` is not one of them
    by_contra hlt
    have hlt' : key (π k) < v := Nat.lt_of_not_le hlt
    have hsub : Finset.Iic k ⊆ (Finset.univ.filter fun i : Fin N => key (π i) < v) := by
      intro i hi
      rw [Finset.mem_Iic] at hi
      rw [Finset.mem_filter]
      exact ⟨Finset.mem_univ _, lt_of_le_of_lt (hmono' i k hi) hlt'⟩
    have hc := Finset.card_le_card hsub
    rw [Fin.card_Iic] at hc
    omega

end Cert.Count
-- ==== Proof.SortValue.lean ====
/-
  The reference's sort, read at a position: the keys of one query are the source's own index where the source is inside
  the ball and `4096` elsewhere; sorted increasingly, position `k` holds the index of the `(k+1)`-th source inside, or
  `4096` when there are not that many — `below` of the ball.
-/
import proofs.«426870_j37014028157086_3_alg».proof.Proof.SortCount
import Idealize.ShloMosaic.Lib.SortFacts
import Idealize.ShloMosaic.Lib.ValueIdx

noncomputable section

namespace Cert.SortValue

open Idealize.ShloMosaic Idealize.ShloMosaic.ValueIdx Cert.Count

/-- The fiber of the last axis through `(b, p, k)`: its position `n` is the index `(b, p, n)`. -/
theorem along_last (h2 : 2 < (⟨3, ![8, 4096, 4096]⟩ : Shape).rank) (b : Fin 8) (p k : Fin 4096)
    (n : Fin ((⟨3, ![8, 4096, 4096]⟩ : Shape).size ⟨2, h2⟩)) :
    Shape.Idx.along (s := (⟨3, ![8, 4096, 4096]⟩ : Shape)) (ix3 b p k) ⟨2, h2⟩ n
      = ix3 b p (show Fin 4096 from n) := by
  funext a
  match a with
  | ⟨0, _⟩ => rfl
  | ⟨1, _⟩ => rfl
  | ⟨2, _⟩ => rfl

/-- Signed comparison of two words below `2 ^ 31` is the comparison of the naturals they hold. -/
theorem slt_eq_one_iff (x y : BitVec 32) (hx : x.toNat < 2 ^ 31) (hy : y.toNat < 2 ^ 31) :
    (IntOp.cmpi .slt x y == 1#1) = decide (x.toNat < y.toNat) := by
  have ex : x.toInt = x.toNat := BitVec.toInt_eq_toNat_of_lt (by omega)
  have ey : y.toInt = y.toNat := BitVec.toInt_eq_toNat_of_lt (by omega)
  unfold IntOp.cmpi
  simp only [BitVec.slt_eq_decide, ex, ey, Nat.cast_lt]
  by_cases h : x.toNat < y.toNat <;> simp [h]

/-- The sort along the last axis reads the keys of query `(b, p)` through the stable sorting permutation of that
    query's own keys. -/
theorem sort_apply_fiber (K : IVec (⟨3, ![8, 4096, 4096]⟩ : Shape) 32) (b : Fin 8) (p k : Fin 4096) :
    Host.sort (⟨3, ![8, 4096, 4096]⟩ : Shape) 2 (fun l r : BitVec 32 => IntOp.cmpi .slt l r) K (ix3 b p k)
      = K (ix3 b p (sortedFrom (n := 4096)
          (fun n n' => IntOp.cmpi .slt (K (ix3 b p n)) (K (ix3 b p n')) == 1#1) k)) := by
  have h2 : 2 < (⟨3, ![8, 4096, 4096]⟩ : Shape).rank := by decide
  unfold Host.sort
  rw [dif_pos h2]
  simp only [along_last]
  rfl

theorem sort_keys_apply (M : Fin 8 → Fin 4096 → ℕ → Prop) (K : IVec (⟨3, ![8, 4096, 4096]⟩ : Shape) 32)
    (hin : ∀ (b : Fin 8) (p n : Fin 4096), M b p n.val → K (ix3 b p n) = BitVec.ofNat 32 n.val)
    (hout : ∀ (b : Fin 8) (p n : Fin 4096), ¬ M b p n.val → K (ix3 b p n) = 4096#32)
    (b : Fin 8) (p k : Fin 4096) :
    Host.sort (⟨3, ![8, 4096, 4096]⟩ : Shape) 2 (fun l r : BitVec 32 => IntOp.cmpi .slt l r) K (ix3 b p k)
      = BitVec.ofNat 32 (below (M b p) 4096 k.val) := by
  -- the keys of this query, as naturals: the source's index inside the ball, 4096 outside
  have hkin : ∀ n : Fin 4096, M b p n.val → (K (ix3 b p n)).toNat = n.val := by
    intro n hn
    rw [hin b p n hn, BitVec.toNat_ofNat]
    exact Nat.mod_eq_of_lt (by have := n.isLt; omega)
  have hkout : ∀ n : Fin 4096, ¬ M b p n.val → (K (ix3 b p n)).toNat = 4096 := by
    intro n hn
    rw [hout b p n hn]
    rfl
  have hklt : ∀ n : Fin 4096, (K (ix3 b p n)).toNat < 2 ^ 31 := by
    intro n
    by_cases hn : M b p n.val
    · rw [hkin n hn]; have := n.isLt; omega
    · rw [hkout n hn]; norm_num
  -- on these keys the sort's comparison is `<` of the naturals
  have hbefore : ∀ n n' : Fin 4096,
      (IntOp.cmpi .slt (K (ix3 b p n)) (K (ix3 b p n')) == 1#1)
        = decide ((K (ix3 b p n)).toNat < (K (ix3 b p n')).toNat) :=
    fun n n' => slt_eq_one_iff _ _ (hklt n) (hklt n')
  -- so the sorting permutation arranges them in non-decreasing order
  have hmono : ∀ i j : Fin 4096, i < j →
      (K (ix3 b p (sortedFrom (n := 4096)
          (fun n n' => IntOp.cmpi .slt (K (ix3 b p n)) (K (ix3 b p n')) == 1#1) i))).toNat
        ≤ (K (ix3 b p (sortedFrom (n := 4096)
          (fun n n' => IntOp.cmpi .slt (K (ix3 b p n)) (K (ix3 b p n')) == 1#1) j))).toNat := by
    intro i j hij
    have h := sortedFrom_noInversion (n := 4096)
      (fun n n' => IntOp.cmpi .slt (K (ix3 b p n)) (K (ix3 b p n')) == 1#1)
      (fun n n' => IntOp.cmpi .slt (K (ix3 b p n)) (K (ix3 b p n')) == 1#1)
      (fun a c h => by
        simp only [hbefore, decide_eq_true_eq, decide_eq_false_iff_not] at h ⊢; omega)
      (fun _ _ h => h)
      (fun a c d h₁ h₂ => by
        simp only [hbefore, decide_eq_false_iff_not] at h₁ h₂ ⊢; omega)
      i j hij
    exact Nat.le_of_not_lt (of_decide_eq_false ((hbefore _ _).symm.trans h))
  have hkey := sorted_key_eq_below (N := 4096) (M b p) (fun n => (K (ix3 b p n)).toNat) hkin hkout
    (sortedFrom (n := 4096) (fun n n' => IntOp.cmpi .slt (K (ix3 b p n)) (K (ix3 b p n')) == 1#1))
    ⟨sortedFrom_injective _, sortedFrom_surjective _⟩ hmono k
  rw [sort_apply_fiber, ← hkey]
  exact ((BitVec.ofNat_toNat 32 _).trans (BitVec.setWidth_eq _)).symm

end Cert.SortValue

end
-- ==== Proof.RefValue.lean ====
/-
  The reference's result, stage by stage, is the common value `Spec.G` of its argument.

  Read at batch `b`, query `p` and source `n`, the stages are: the squared norms `|p|²` and `|n|²` (a zero initial value
  plus the three squares, in coordinate order), their sum, the scalar product `⟨p, n⟩` (three products, in coordinate
  order), and `(|p|² + |n|²) - 2 ⟨p, n⟩`: exactly `Spec.dist2`, as an identity of extended reals with the same
  association on both sides, so no finiteness is needed. The key of `n` is `n` itself where that distance is strictly
  below the squared radius and `4096` elsewhere. Sorting the keys of one query increasingly puts at position `k` the
  number of positions whose inclusive rank among the sources inside the ball is at most `k`; the first 32 positions are
  kept, and a position whose value is not a source index (not below `4096`) takes position `0`'s value: `Spec.fill`.
-/
import proofs.«426870_j37014028157086_3_alg».proof.Proof.Gen.ReferenceIdeal.Read
import proofs.«426870_j37014028157086_3_alg».proof.Proof.Spec
import proofs.«426870_j37014028157086_3_alg».proof.Proof.SortValue

noncomputable section

namespace Cert.ReferenceIdeal.RefValue

open Idealize.ShloMosaic Idealize.ShloMosaic.ValueIdx Cert.ReferenceIdeal Cert.ReferenceIdeal.Gen Cert.Count

/-- The first sum of squares at `(b, p)` is `|p|²`: the zero initial value drops out and the three squares come in
    coordinate order. -/
theorem sq1_apply (x : (⟨S8x4096x3, .f32⟩ : BufTy).Contents (Elt Ideal)) (b : Fin 8) (p : Fin 4096) :
    Read.val_main_v1 (F := Ideal) x (ix2 b p) = Cert.Spec.sqNorm x b p := by
  have e : ∀ k : Fin 3, Read.idx_main_v1 (ix2 b p) k = ix3 b p k := fun k => funext fun a => by
    match a with | ⟨0, _⟩ => rfl | ⟨1, _⟩ => rfl | ⟨2, _⟩ => rfl
  rw [Read.val_main_v1_apply, Fin.sum_univ_three]
  simp only [Read.val_main_v0_apply, Read.val_main_cst_apply, Ideal.ofBits_def, Ideal.ofBits_zero_f32, Ideal.mulf_def,
    zero_add, e]
  rfl

/-- The second sum of squares at `(b, p)` is `|p|²` as well. -/
theorem sq3_apply (x : (⟨S8x4096x3, .f32⟩ : BufTy).Contents (Elt Ideal)) (b : Fin 8) (p : Fin 4096) :
    Read.val_main_v3 (F := Ideal) x (ix2 b p) = Cert.Spec.sqNorm x b p := by
  have e : ∀ k : Fin 3, Read.idx_main_v3 (ix2 b p) k = ix3 b p k := fun k => funext fun a => by
    match a with | ⟨0, _⟩ => rfl | ⟨1, _⟩ => rfl | ⟨2, _⟩ => rfl
  rw [Read.val_main_v3_apply, Fin.sum_univ_three]
  simp only [Read.val_main_v2_apply, Read.val_main_cst_0_apply, Ideal.ofBits_def, Ideal.ofBits_zero_f32, Ideal.mulf_def,
    zero_add, e]
  rfl

/-- The contraction over the coordinate axis at `(b, p, n)` is `⟨p, n⟩`, the three products in coordinate order. -/
theorem dot_apply (x : (⟨S8x4096x3, .f32⟩ : BufTy).Contents (Elt Ideal)) (b : Fin 8) (p n : Fin 4096) :
    Read.val_main_v9 (F := Ideal) x (ix3 b p n) = Cert.Spec.dot3 x b p n := by
  have el : ∀ k : Fin 3, Read.lidx_main_v9 (ix3 b p n) k = ix3 b p k := fun k => funext fun a => by
    match a with | ⟨0, _⟩ => rfl | ⟨1, _⟩ => rfl | ⟨2, _⟩ => rfl
  have er : ∀ k : Fin 3, Read.ridx_main_v9 (ix3 b p n) k = ix3 b n k := fun k => funext fun a => by
    match a with | ⟨0, _⟩ => rfl | ⟨1, _⟩ => rfl | ⟨2, _⟩ => rfl
  rw [Read.val_main_v9_apply, Fin.sum_univ_three]
  simp only [el, er]
  rfl

/-- The squared distance at `(b, p, n)`: the query's norm is broadcast along the sources, the source's norm along the
    queries, and twice the scalar product is taken off their sum. -/
theorem dist_apply (x : (⟨S8x4096x3, .f32⟩ : BufTy).Contents (Elt Ideal)) (b : Fin 8) (p n : Fin 4096) :
    Read.val_main_v12 (F := Ideal) x (ix3 b p n) = Cert.Spec.dist2 x b p n := by
  have e4 : Read.idx_main_v4 (Read.idx_main_v6 (ix3 b p n)) = ix2 b p := funext fun a => by
    match a with | ⟨0, _⟩ => rfl | ⟨1, _⟩ => rfl
  have e5 : Read.idx_main_v5 (Read.idx_main_v7 (ix3 b p n)) = ix2 b n := funext fun a => by
    match a with | ⟨0, _⟩ => rfl | ⟨1, _⟩ => rfl
  rw [Read.val_main_v12_apply, Read.val_main_v8_apply, Read.val_main_v11_apply, Read.val_main_v6_apply,
    Read.val_main_v7_apply, Read.val_main_v4_apply, Read.val_main_v5_apply, Read.val_main_v10_apply,
    Read.val_main_cst_1_apply, e4, e5, sq3_apply, sq1_apply, dot_apply]
  rfl

/-- The key of source `n` for query `p`: `n` where the comparison bit of "distance below the squared radius" is set,
    `4096` where it is clear. -/
theorem keys_apply (x : (⟨S8x4096x3, .f32⟩ : BufTy).Contents (Elt Ideal)) (b : Fin 8) (p n : Fin 4096) :
    Read.val_main_v17 (F := Ideal) x (ix3 b p n)
      = Scalar.select (Ideal.cmp .olt (Cert.Spec.dist2 x b p n) Cert.Spec.radius2) (BitVec.ofNat 32 n.val) 4096#32 := by
  have e16 : Read.idx_main_v16 (Read.idx_main_call0_v0 (ix3 b p n)) = ix1 n := funext fun a => by
    match a with | ⟨0, _⟩ => rfl
  rw [Read.val_main_v17_apply, Read.val_main_v14_apply, dist_apply, Read.val_main_v13_apply, Read.val_main_cst_2_apply,
    Read.val_main_call0_v0_apply, Read.val_main_v16_apply, Read.val_main_v15_apply, e16,
    Read.val_main_call0_v1_apply, Read.val_main_c_apply]
  rfl

/-- A source inside the ball keeps its own index as its key. -/
theorem keys_in (x : (⟨S8x4096x3, .f32⟩ : BufTy).Contents (Elt Ideal)) (b : Fin 8) (p n : Fin 4096)
    (h : Cert.Spec.inBall x b p n.val) : Read.val_main_v17 (F := Ideal) x (ix3 b p n) = BitVec.ofNat 32 n.val := by
  obtain ⟨hn, hlt⟩ := h
  have hc : Ideal.cmp .olt (Cert.Spec.dist2 x b p n) Cert.Spec.radius2 = 1#1 := by
    show BitVec.ofBool (decide (Cert.Spec.dist2 x b p n < Cert.Spec.radius2)) = 1#1
    rw [decide_eq_true hlt]; rfl
  rw [keys_apply, hc, select_one]

/-- A source not inside the ball gets the key `4096`. -/
theorem keys_out (x : (⟨S8x4096x3, .f32⟩ : BufTy).Contents (Elt Ideal)) (b : Fin 8) (p n : Fin 4096)
    (h : ¬ Cert.Spec.inBall x b p n.val) : Read.val_main_v17 (F := Ideal) x (ix3 b p n) = 4096#32 := by
  have hlt : ¬ Cert.Spec.dist2 x b p n < Cert.Spec.radius2 := fun hlt => h ⟨n.isLt, hlt⟩
  have hc : Ideal.cmp .olt (Cert.Spec.dist2 x b p n) Cert.Spec.radius2 = 0#1 := by
    show BitVec.ofBool (decide (Cert.Spec.dist2 x b p n < Cert.Spec.radius2)) = 0#1
    rw [decide_eq_false hlt]; rfl
  rw [keys_apply, hc, select_zero]

/-- The sorted keys of query `p` at position `k`: the number of positions of inclusive rank at most `k`. -/
theorem sorted_apply (x : (⟨S8x4096x3, .f32⟩ : BufTy).Contents (Elt Ideal)) (b : Fin 8) (p k : Fin 4096) :
    Read.val_main_v18 (F := Ideal) x (ix3 b p k)
      = BitVec.ofNat 32 (below (Cert.Spec.inBall x b p) 4096 k.val) :=
  Cert.SortValue.sort_keys_apply (fun b p => Cert.Spec.inBall x b p) (Read.val_main_v17 (F := Ideal) x)
    (keys_in x) (keys_out x) b p k

/-- The first 32 sorted keys: slot `k` reads position `k`. -/
theorem first_apply (x : (⟨S8x4096x3, .f32⟩ : BufTy).Contents (Elt Ideal)) (b : Fin 8) (p : Fin 4096) (k : Fin 32) :
    Read.val_main_v19 (F := Ideal) x (ix3 b p k)
      = BitVec.ofNat 32 (below (Cert.Spec.inBall x b p) 4096 k.val) := by
  have e : Read.idx_main_v19 (ix3 b p k) = ix3 b p (⟨k.val, by omega⟩ : Fin 4096) := funext fun a => by
    match a with | ⟨0, _⟩ => rfl | ⟨1, _⟩ => rfl | ⟨2, _⟩ => rfl
  rw [Read.val_main_v19_apply, e, sorted_apply]

/-- Slot `0`'s value, broadcast along the slots. -/
theorem slot0_apply (x : (⟨S8x4096x3, .f32⟩ : BufTy).Contents (Elt Ideal)) (b : Fin 8) (p : Fin 4096) (k : Fin 32) :
    Read.val_main_call2_v0 (F := Ideal) x (ix3 b p k)
      = BitVec.ofNat 32 (below (Cert.Spec.inBall x b p) 4096 0) := by
  have e : Read.idx_main_v20 (Read.idx_main_call2_v0 (ix3 b p k)) = ix3 b p (⟨0, by decide⟩ : Fin 32) :=
    funext fun a => by match a with | ⟨0, _⟩ => rfl | ⟨1, _⟩ => rfl | ⟨2, _⟩ => rfl
  rw [Read.val_main_call2_v0_apply, Read.val_main_v20_apply, e, first_apply]

/-- The reference's result is the common value: at every batch, query and slot, the slot's count where it is a source
    index and slot `0`'s count elsewhere. -/
theorem ref_eq (x : (⟨S8x4096x3, .f32⟩ : BufTy).Contents (Elt Ideal)) :
    Cert.ReferenceIdeal.Read.val_main_v23 (F := Ideal) x = Cert.Spec.G x := by
  funext j
  obtain ⟨b, p, k, rfl⟩ : ∃ (b : Fin 8) (p : Fin 4096) (k : Fin 32), j = ix3 b p k := ⟨j 0, j 1, j 2, eq_ix3 j⟩
  rw [Read.val_main_v23_apply, Read.val_main_v22_apply, Read.val_main_v21_apply, Read.val_main_c_3_apply, first_apply,
    slot0_apply]
  rfl

end Cert.ReferenceIdeal.RefValue

end
-- ==== Proof.lean ====
/-
  Ball query: for each of 8 × 4096 query points, the indices of the first 32 source points (in index order) strictly
  inside the ball of squared radius 0.04 around it, unused slots filled with the first.

  The reference masks the squared distances, replaces each source by its own index (inside) or 4096 (outside), sorts
  each query's 4096 keys and keeps the first 32.  The kernel never sorts: per tile of 128 queries it walks the sources
  in sixteen chunks of 256, takes the mask's inclusive prefix sums (the source's rank among those inside), and for each
  threshold `k = 1 … 32` counts the sources of rank below `k`; that count IS the index of the `k`-th source inside, or
  4096 when there are fewer.  On the extended reals both squared distances are `(|p|² + |n|²) - 2 ⟨p, n⟩` with the
  sums in the same order, so the masks agree, and both results are `Spec.G` of the points (Proof/Spec.lean):
  the kernel's by Proof/KernelArray.lean (over Chunks, CumValue, Fold), the reference's by Proof/RefValue.lean
  (over SortValue).  The ideal pass rewrote nothing, so `preserves` is trivial; the frames are the generated ones.
-/
import proofs.«426870_j37014028157086_3_alg».proof.Defs
import proofs.«426870_j37014028157086_3_alg».proof.Proof.Gen.Kernel
import proofs.«426870_j37014028157086_3_alg».proof.Proof.Gen.Kernel.Skeleton
import proofs.«426870_j37014028157086_3_alg».proof.Proof.Gen.Kernel.Launch
import proofs.«426870_j37014028157086_3_alg».proof.Proof.Gen.Kernel.Points
import proofs.«426870_j37014028157086_3_alg».proof.Proof.Gen.Kernel.Frame
import proofs.«426870_j37014028157086_3_alg».proof.Proof.Gen.KernelIdeal
import proofs.«426870_j37014028157086_3_alg».proof.Proof.Gen.KernelIdeal.Skeleton
import proofs.«426870_j37014028157086_3_alg».proof.Proof.Gen.KernelIdeal.Launch
import proofs.«426870_j37014028157086_3_alg».proof.Proof.Gen.KernelIdeal.Points
import proofs.«426870_j37014028157086_3_alg».proof.Proof.Gen.KernelIdeal.Frame
import proofs.«426870_j37014028157086_3_alg».proof.Proof.Gen.ReferenceIdeal
import proofs.«426870_j37014028157086_3_alg».proof.Proof.Gen.ReferenceIdeal.Run
import proofs.«426870_j37014028157086_3_alg».proof.Proof.Gen.ReferenceIdeal.Read
import proofs.«426870_j37014028157086_3_alg».proof.Proof.Gen.Pre_finite_inputs
import proofs.«426870_j37014028157086_3_alg».proof.Proof.KernelArray
import proofs.«426870_j37014028157086_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at `Spec.G` of the points they were given, and they were given the same points. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelIdeal.Array.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.ref_eq, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
